-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_100000" .f32 0x3727C5AC#32 ((1 / 100000 : ℝ) : EReal)
  ∧ IdealRules.named_const.Statement Cert.KernelIdeal.κ "inv_100000" .f32 0x3727C5AC#32 ((1 / 100000 : ℝ) : EReal)
  ∧ IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_arg2 : IVec S2x1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg1 main_v34
  let main_c_13 : IVec S_ 32 := constantI S_ 32 100000#32
  let main_v36 : IVec S2x1600000 32 := broadcastInDim S2x1600000 ![] bcast_S_S2x1600000 main_c_13
  let main_v37 : IVec S2x1600000 1 := cmpi .slt main_arg1 main_v36
  let main_v38 : IVec S2x1600000 1 := andi main_v35 main_v37
  let main_c_14 : IVec S_ 1 := constantI S_ 1 1#1
  let main_v39 : IVec S_ 1 := (fun x v => Host.reduce IntOp.andi x v reducesTo_S2x1600000_S_d0_1 h_S_) main_v38 main_c_14
  let main_v40 : IVec S_ 1 := andi main_v33 main_v39
  let main_c_15 : IVec S_ 32 := constantI S_ 32 0#32
  let main_v41 : IVec S2x1600000 32 := broadcastInDim S2x1600000 ![] bcast_S_S2x1600000 main_c_15
  let main_v42 : IVec S2x1600000 1 := cmpi .sge main_arg2 main_v41
  let main_c_16 : IVec S_ 32 := constantI S_ 32 100000#32
  let main_v43 : IVec S2x1600000 32 := broadcastInDim S2x1600000 ![] bcast_S_S2x1600000 main_c_16
  let main_v44 : IVec S2x1600000 1 := cmpi .slt main_arg2 main_v43
  let main_v45 : IVec S2x1600000 1 := andi main_v42 main_v44
  let main_c_17 : IVec S_ 1 := constantI S_ 1 1#1
  let main_v46 : IVec S_ 1 := (fun x v => Host.reduce IntOp.andi x v reducesTo_S2x1600000_S_d0_1 h_S_) main_v45 main_c_17
  let main_v47 : IVec S_ 1 := andi main_v40 main_v46
  main_v47

def fn_part1 {F : FTy → Type} [FloatOps F] (main_arg1 : IVec S2x1600000 32) (main_arg2 : IVec S2x1600000 32) (main_arg6 : FVec F S128x128 .f32) (main_arg7 : FVec F S128 .f32) (main_arg8 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_v33

def fn {F : FTy → Type} [FloatOps F] (main_arg0 : FVec F S100000x128 .f32) (main_arg1 : IVec S2x1600000 32) (main_arg2 : IVec S2x1600000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S1x128 : Shape := ⟨2, ![1, 128]⟩
abbrev S2x1x128 : Shape := ⟨3, ![2, 1, 128]⟩
abbrev S10000x128 : Shape := ⟨2, ![10000, 128]⟩
abbrev S10000x2 : Shape := ⟨2, ![10000, 2]⟩
abbrev S1x1x128 : Shape := ⟨3, ![1, 1, 128]⟩
abbrev S10000x1 : Shape := ⟨2, ![10000, 1]⟩
abbrev S2x128 : Shape := ⟨2, ![2, 128]⟩

abbrev nBuf : Space → Nat
  | .hbm => 79
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S1x1600000, .i32⟩
  | .hbm, ⟨39, _⟩ => ⟨S1600000, .i32⟩
  | .hbm, ⟨40, _⟩ => ⟨S1x1600000, .i32⟩
  | .hbm, ⟨41, _⟩ => ⟨S1600000, .i32⟩
  | .hbm, ⟨42, _⟩ => ⟨S_, .f32⟩
  | .hbm, ⟨43, _⟩ => ⟨S1600000, .f32⟩
  | .hbm, ⟨44, _⟩ => ⟨S_, .f32⟩
  | .hbm, ⟨45, _⟩ => ⟨S100000, .f32⟩
  | .hbm, ⟨46, _⟩ => ⟨S1600000x1, .i32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S100000x1, .f32⟩
  | .hbm, ⟨68, _⟩ => ⟨S100000x1, .f32⟩
  | .hbm, ⟨69, _⟩ => ⟨S100000x2, .f32⟩
  | .hbm, ⟨70, _⟩ => ⟨S128x128, .f32⟩
  | .hbm, ⟨71, _⟩ => ⟨S128, .f32⟩
  | .hbm, ⟨72, _⟩ => ⟨S1x128, .f32⟩
  | .hbm, ⟨73, _⟩ => ⟨S2x1x128, .f32⟩
  | .hbm, ⟨74, _⟩ => ⟨S2x128, .f32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S1x128, .f32⟩
  | .local _ .vmem, ⟨0, _⟩ => ⟨S10000x128, .f32⟩
  | .local _ .vmem, ⟨1, _⟩ => ⟨S10000x128, .f32⟩
  | .local _ .vmem, ⟨2, _⟩ => ⟨S10000x2, .f32⟩
  | .local _ .vmem, ⟨3, _⟩ => ⟨S10000x2, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x1x128, .f32⟩
  | .local _ .vmem, ⟨8, _⟩ => ⟨S1x1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v33 : BitVec 1 := Scalar.cmpi .eq arg1 c4_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  slices_S10000x2_o0_0_S10000x1 : S10000x2.Slices ![0, 0] S10000x1
  slices_S10000x2_o0_1_S10000x1 : S10000x2.Slices ![0, 1] S10000x1
  reduces_S10000x128_S128 : S10000x128.Reduces [0] S128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S2x1x128_S2x128 : S2x1x128.ShapeCasts S2x128
  reducesTo_S2x128_S128_d0 : S2x128.ReducesTo [0] S128
  h_S_ : 0 < S_.numel
  bcast_S128_S1x128_1 : S128.BroadcastsInDim S1x128 (![1] : Fin 1 → Fin S1x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S100000x2.size a
  hwx0_1 : ∀ i : grid0.Coords, EltTy.bits .f32 = 32 ∨ (Rect.block (s := S100000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S10000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000x1, .f32⟩
  | .hbm, ⟨28, _⟩ => ⟨S_, .f32⟩
  | .hbm, ⟨29, _⟩ => ⟨S100000x1, .f32⟩
  | .hbm, ⟨30, _⟩ => ⟨S1600000x1, .i32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x1600000, .i32⟩
  | .hbm, ⟨44, _⟩ => ⟨S1600000, .i32⟩
  | .hbm, ⟨45, _⟩ => ⟨S1x1600000, .i32⟩
  | .hbm, ⟨46, _⟩ => ⟨S1600000, .i32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000x1, .f32⟩
  | .hbm, ⟨62, _⟩ => ⟨S_, .f32⟩
  | .hbm, ⟨63, _⟩ => ⟨S100000x1, .f32⟩
  | .hbm, ⟨64, _⟩ => ⟨S1600000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the two programs, over the reals.

  A graph on `NN` nodes carries two edge lists (two edge types) of `EE` edges each; an edge has a source and a
  destination node. A node feature matrix `x : NN × FF` is given. For one edge type, a node's neighbour mean is the
  sum of the feature rows of the sources of its incoming edges divided by its in-degree (by one where it has none);
  the layer's output at a node is the mean times a matrix `Wl`, plus a bias, plus the node's own row times `Wr`.
  The result is the mean over all nodes of the sum of the two edge types' outputs: a row of `FF` numbers.

  The same row is obtained without any per-node matrix product: weigh node `n`'s row by
  `q n = ∑_{e : src e = n} 1 / max (indeg (dst e)) 1`, sum the weighted rows and the plain rows over the nodes,
  scale by `1 / NN`, and only then multiply by the matrices. This file states both forms; their equality is
  proved in the algebra module.
-/
import Mathlib.Data.Real.Basic
import Mathlib.Algebra.BigOperators.Group.Finset.Basic
import Mathlib.Algebra.BigOperators.Ring.Finset
import Mathlib.Algebra.Order.Field.Basic

noncomputable section

open scoped BigOperators

namespace Cert.Spec

/-- The number of nodes. -/
abbrev NN : Nat := 100000
/-- The number of edges of one edge type. -/
abbrev EE : Nat := 1600000
/-- The feature width (input and hidden). -/
abbrev FF : Nat := 128

/-- One edge type: each edge's source and destination node. -/
structure Edges where
  src : Fin EE → Fin NN
  dst : Fin EE → Fin NN

/-- A node's in-degree, as a real. -/
def Edges.cnt (g : Edges) (i : Fin NN) : ℝ := ∑ _e ∈ Finset.univ.filter (fun e => g.dst e = i), (1 : ℝ)

/-- The reciprocal of the in-degree, of one where the node has no incoming edge. -/
def Edges.inv (g : Edges) (i : Fin NN) : ℝ := 1 / max (g.cnt i) 1

/-- The weight of node `n`: over its outgoing edges, the reciprocal in-degree of the edge's destination. -/
def Edges.q (g : Edges) (n : Fin NN) : ℝ := ∑ e ∈ Finset.univ.filter (fun e => g.src e = n), g.inv (g.dst e)

/-- The sum of the source rows over node `i`'s incoming edges, at feature `f`. -/
def Edges.agg (g : Edges) (x : Fin NN → Fin FF → ℝ) (i : Fin NN) (f : Fin FF) : ℝ :=
  ∑ e ∈ Finset.univ.filter (fun e => g.dst e = i), x (g.src e) f

/-- One edge type's layer output at node `i`, hidden unit `h`. -/
def sage (x : Fin NN → Fin FF → ℝ) (g : Edges) (Wl Wr : Fin FF → Fin FF → ℝ) (bl : Fin FF → ℝ)
    (i : Fin NN) (h : Fin FF) : ℝ :=
  (∑ f, (g.agg x i f / max (g.cnt i) 1) * Wl f h) + bl h + ∑ f, x i f * Wr f h

/-- The reference's row: the mean over the nodes of the two layer outputs' sum. -/
def refRow (x : Fin NN → Fin FF → ℝ) (gp gn : Edges) (WlP WrP WlN WrN : Fin FF → Fin FF → ℝ)
    (blP blN : Fin FF → ℝ) (h : Fin FF) : ℝ :=
  (∑ i, (sage x gp WlP WrP blP i h + sage x gn WlN WrN blN i h)) / 100000

/-- The streamed form: weighted and plain column sums, scaled, then three vector-matrix products, then the biases. -/
def kerRow (x : Fin NN → Fin FF → ℝ) (gp gn : Edges) (WlP WrP WlN WrN : Fin FF → Fin FF → ℝ)
    (blP blN : Fin FF → ℝ) (h : Fin FF) : ℝ :=
  ((∑ f, ((∑ n, x n f * gp.q n) * (1 / 100000)) * WlP f h)
    + (∑ f, ((∑ n, x n f * gn.q n) * (1 / 100000)) * WlN f h)
    + (∑ f, ((∑ n, x n f) * (1 / 100000)) * (WrP f h + WrN f h)))
  + (blP h + blN h)

end Cert.Spec

end
-- ==== Proof.Lift.lean ====
/-
  How the programs' arrays carry the real data of the specification.

  At the exact instance a float array is a function from the indices of its shape to the extended reals. Under the
  precondition every float entry is a real number and every word of the two edge index arrays is a node number;
  these predicates say that an array IS a given real matrix or vector, and that an edge index array IS a given edge
  list (row 0 the sources, row 1 the destinations, each word read as a signed integer).
-/
import Idealize.ShloMosaic.PureOps.Ideal
import Idealize.ShloMosaic.Lib.ValueIdx
import proofs.«429977_j70935679860741_3_alg».proof.Proof.Spec

noncomputable section

namespace Cert.Lift

open Idealize.ShloMosaic Idealize.ShloMosaic.ValueIdx Cert.Spec

/-- A rank-2 array whose entry at `(i, j)` is the real `r i j`. -/
def IsReal2 {a b : Nat} (X : (⟨2, ![a, b]⟩ : Shape).Idx → EReal) (r : Fin a → Fin b → ℝ) : Prop :=
  ∀ i j, X (ix2 i j) = ((r i j : ℝ) : EReal)

/-- A rank-1 array whose entry at `i` is the real `r i`. -/
def IsReal1 {a : Nat} (X : (⟨1, ![a]⟩ : Shape).Idx → EReal) (r : Fin a → ℝ) : Prop :=
  ∀ i, X (ix1 i) = ((r i : ℝ) : EReal)

/-- An edge index array whose row 0 holds each edge's source and row 1 its destination, as signed words. -/
def IsEdges (ei : IVec (⟨2, ![2, EE]⟩ : Shape) 32) (g : Edges) : Prop :=
  ∀ e : Fin EE, (ei (ix2 (0 : Fin 2) e)).toInt = ((g.src e).val : ℤ) ∧ (ei (ix2 (1 : Fin 2) e)).toInt = ((g.dst e).val : ℤ)

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Cert.Lift

end
-- ==== Proof.PreDecode.lean ====
/-
  The printed precondition, read back.

  The precondition is one conjunction of nine "for all entries" statements. Seven of them say, of a float array, that
  the absolute value of every entry lies strictly below +∞: at the exact instance an entry is an extended real, and one
  whose absolute value max(x, -x) is below +∞ is neither +∞ nor -∞, so it is a real number. Two of them say, of an
  edge index array, that every word w read as a signed integer satisfies 0 ≤ w and w < 100000: so it is a node number.
  Hence, under the precondition, the float arguments ARE real matrices and vectors and the two index arguments ARE edge
  lists, in the sense of the lifting predicates.
-/
import proofs.«429977_j70935679860741_3_alg».proof.Pre_finite_inputs
import proofs.«429977_j70935679860741_3_alg».proof.Proof.Gen.Pre_finite_inputs
import proofs.«429977_j70935679860741_3_alg».proof.Proof.Lift
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Idealize.ShloMosaic.ValueIdx

/-- The rank-0 shape has exactly one index. -/
instance : Subsingleton (⟨0, ![]⟩ : Shape).Idx := ⟨fun _ _ => funext fun d => d.elim0⟩

/-- An extended real whose absolute value max(x, -x) lies strictly below +∞ is a real number: at x = +∞ and at
    x = -∞ the absolute value is +∞ itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- One float array's conjunct, at any shape: if the conjunction over all entries of "|entry| < +∞" is 1, then the
    array is a family of real numbers. -/
theorem real_of_all {s : Shape} {axes : List (Fin s.rank)} (X : FVec Ideal s .f32)
    (bc : (⟨0, ![]⟩ : Shape).BroadcastsInDim s (![] : Fin 0 → Fin s.rank))
    (red : s.ReducesTo axes (⟨0, ![]⟩ : Shape)) (h0 : 0 < (⟨0, ![]⟩ : Shape).numel)
    (h : Host.reduce IntOp.andi
          (cmpf .olt (Host.absf X) (broadcastInDim s ![] bc (constant (F := Ideal) ⟨0, ![]⟩ .f32 0x7F800000#32)))
          (constantI ⟨0, ![]⟩ 1 1#1) red h0 ix0 = 1#1) :
    ∃ r : s.Idx → ℝ, ∀ i, X i = ((r i : ℝ) : EReal) := by
  have hall := Host.reduce_andi_all _ _ red h0 ix0 h
  have hel : ∀ i, ∃ r : ℝ, X i = (r : EReal) := fun i => real_of_abs_lt_top (X i) (hall i)
  exact ⟨fun i => Classical.choose (hel i), fun i => Classical.choose_spec (hel i)⟩

/-- One index array's conjunct, at any shape: if the conjunction over all words of "0 ≤ w and w < 100000" (signed) is 1,
    then every word, read signed, is an integer in [0, 100000). -/
theorem range_of_all {s : Shape} {axes : List (Fin s.rank)} (A : IVec s 32)
    (bc : (⟨0, ![]⟩ : Shape).BroadcastsInDim s (![] : Fin 0 → Fin s.rank))
    (red : s.ReducesTo axes (⟨0, ![]⟩ : Shape)) (h0 : 0 < (⟨0, ![]⟩ : Shape).numel)
    (h : Host.reduce IntOp.andi
          (andi (cmpi .sge A (broadcastInDim s ![] bc (constantI ⟨0, ![]⟩ 32 0#32)))
                (cmpi .slt A (broadcastInDim s ![] bc (constantI ⟨0, ![]⟩ 32 100000#32))))
          (constantI ⟨0, ![]⟩ 1 1#1) red h0 ix0 = 1#1) :
    ∀ i, 0 ≤ (A i).toInt ∧ (A i).toInt < 100000 := by
  intro i
  have hall := Host.reduce_andi_all _ _ red h0 ix0 h i
  obtain ⟨h1, h2⟩ := IntOp.andi_eq_one.1 hall
  have h1' : IntOp.cmpi .sge (A i) 0#32 = 1#1 := h1
  have h2' : IntOp.cmpi .slt (A i) 100000#32 = 1#1 := h2
  rw [IntOp.cmpi_sge] at h1'
  rw [IntOp.cmpi_slt] at h2'
  have e0 : (0#32 : BitVec 32).toInt = 0 := by decide
  have e1 : (100000#32 : BitVec 32).toInt = 100000 := by decide
  rw [e0] at h1'
  rw [e1] at h2'
  exact ⟨h1', h2'⟩

/-- A rank-2 family of reals is a real matrix. -/
theorem isReal2_of {a b : Nat} (X : (⟨2, ![a, b]⟩ : Shape).Idx → EReal)
    (h : ∃ r : (⟨2, ![a, b]⟩ : Shape).Idx → ℝ, ∀ i, X i = ((r i : ℝ) : EReal)) :
    ∃ r : Fin a → Fin b → ℝ, Cert.Lift.IsReal2 X r := by
  obtain ⟨r, hr⟩ := h
  exact ⟨fun i j => r (ix2 i j), fun i j => hr (ix2 i j)⟩

/-- A rank-1 family of reals is a real vector. -/
theorem isReal1_of {a : Nat} (X : (⟨1, ![a]⟩ : Shape).Idx → EReal)
    (h : ∃ r : (⟨1, ![a]⟩ : Shape).Idx → ℝ, ∀ i, X i = ((r i : ℝ) : EReal)) :
    ∃ r : Fin a → ℝ, Cert.Lift.IsReal1 X r := by
  obtain ⟨r, hr⟩ := h
  exact ⟨fun i => r (ix1 i), fun i => hr (ix1 i)⟩

/-- An index array all of whose words are integers in [0, 100000) is an edge list: edge e's source is the node
    numbered by the word at (0, e), its destination the node numbered by the word at (1, e). -/
theorem isEdges_of (ei : IVec (⟨2, ![2, Cert.Spec.EE]⟩ : Shape) 32)
    (h : ∀ i, 0 ≤ (ei i).toInt ∧ (ei i).toInt < 100000) : ∃ g : Cert.Spec.Edges, Cert.Lift.IsEdges ei g := by
  have hlt : ∀ i, (ei i).toInt.toNat < Cert.Spec.NN := fun i => by
    have := h i
    show (ei i).toInt.toNat < 100000
    omega
  refine ⟨⟨fun e => ⟨(ei (ix2 (0 : Fin 2) e)).toInt.toNat, hlt _⟩, fun e => ⟨(ei (ix2 (1 : Fin 2) e)).toInt.toNat, hlt _⟩⟩, ?_⟩
  intro e
  exact ⟨(Int.toNat_of_nonneg (h _).1).symm, (Int.toNat_of_nonneg (h _).1).symm⟩

/-- THE PRECONDITION DECODED: when the printed predicate is 1, the nine arguments are real arrays and edge lists. -/
theorem decode [Cert.Pre_finite_inputs.Facts]
    (x : FVec Ideal Cert.Pre_finite_inputs.S100000x128 .f32) (ep en : IVec Cert.Pre_finite_inputs.S2x1600000 32)
    (w3 : FVec Ideal Cert.Pre_finite_inputs.S128x128 .f32) (b4 : FVec Ideal Cert.Pre_finite_inputs.S128 .f32)
    (w5 w6 : FVec Ideal Cert.Pre_finite_inputs.S128x128 .f32) (b7 : FVec Ideal Cert.Pre_finite_inputs.S128 .f32)
    (w8 : FVec Ideal Cert.Pre_finite_inputs.S128x128 .f32)
    (h : Cert.Pre_finite_inputs.fn (F := Ideal) x ep en w3 b4 w5 w6 b7 w8 = fun _ => 1#1) :
    ∃ (xr : Fin Cert.Spec.NN → Fin Cert.Spec.FF → ℝ) (gp gn : Cert.Spec.Edges)
      (r3 : Fin 128 → Fin 128 → ℝ) (r4 : Fin 128 → ℝ) (r5 r6 : Fin 128 → Fin 128 → ℝ) (r7 : Fin 128 → ℝ) (r8 : Fin 128 → Fin 128 → ℝ),
      Cert.Lift.IsReal2 x xr ∧ Cert.Lift.IsEdges ep gp ∧ Cert.Lift.IsEdges en gn ∧ Cert.Lift.IsReal2 w3 r3 ∧ Cert.Lift.IsReal1 b4 r4
        ∧ Cert.Lift.IsReal2 w5 r5 ∧ Cert.Lift.IsReal2 w6 r6 ∧ Cert.Lift.IsReal1 b7 r7 ∧ Cert.Lift.IsReal2 w8 r8 := by
  have h0 := congrFun h ix0
  dsimp only [Cert.Pre_finite_inputs.fn, Cert.Pre_finite_inputs.fn_part1, Cert.Pre_finite_inputs.fn_part2] at h0
  -- the result word is the conjunction of the nine all-reductions, associated to the left
  obtain ⟨h0, hen⟩ := IntOp.andi_eq_one.1 h0
  obtain ⟨h0, hep⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨hx, h3⟩ := IntOp.andi_eq_one.1 h0
  obtain ⟨xr, hxr⟩ := isReal2_of x (real_of_all x _ _ _ hx)
  obtain ⟨r3, hr3⟩ := isReal2_of w3 (real_of_all w3 _ _ _ h3)
  obtain ⟨r4, hr4⟩ := isReal1_of b4 (real_of_all b4 _ _ _ h4)
  obtain ⟨r5, hr5⟩ := isReal2_of w5 (real_of_all w5 _ _ _ h5)
  obtain ⟨r6, hr6⟩ := isReal2_of w6 (real_of_all w6 _ _ _ h6)
  obtain ⟨r7, hr7⟩ := isReal1_of b7 (real_of_all b7 _ _ _ h7)
  obtain ⟨r8, hr8⟩ := isReal2_of w8 (real_of_all w8 _ _ _ h8)
  obtain ⟨gp, hgp⟩ := isEdges_of ep (range_of_all ep _ _ _ hep)
  obtain ⟨gn, hgn⟩ := isEdges_of en (range_of_all en _ _ _ hen)
  exact ⟨xr, gp, gn, r3, r4, r5, r6, r7, r8, hxr, hgp, hgn, hr3, hr4, hr5, hr6, hr7, hr8⟩

end Cert.PreDecode

end
-- ==== Proof.SpecAlgebra.lean ====
/-
  The algebra that identifies the two forms of the mean row.

  Everything is proved once for arbitrary finite index types: nodes, edges and features. The one
  combinatorial fact is that summing over the fibres of a map and then over its values is summing over
  the whole domain. Applied to the destination map it turns the sum over the nodes of the neighbour means
  into one sum over the edges, each edge carrying the reciprocal in-degree of its destination; applied to
  the source map it regroups that edge sum by source node, which is where the node weight comes from.
  The bias, added once per node and then averaged, comes back unchanged because the divisor is the number
  of nodes. The rest is linearity of finite sums.
-/
import proofs.«429977_j70935679860741_3_alg».proof.Proof.Spec
import Mathlib.Algebra.BigOperators.Field
import Mathlib.Data.Fintype.BigOperators
import Mathlib.Data.Fintype.Card
import Mathlib.Tactic.Ring
import Mathlib.Tactic.FieldSimp
import Mathlib.Tactic.NormNum

open scoped BigOperators
open Finset

namespace Cert.Spec

section General

variable {ι ε κ : Type*} [Fintype ι] [Fintype ε] [Fintype κ] [DecidableEq ι]

/-- Summing a quantity that may depend on the fibre's base point over every fibre of `d` is one sum
over the whole domain, the base point being replaced by the value of `d`. -/
theorem sum_fibres (d : ε → ι) (φ : ι → ε → ℝ) :
    ∑ i, ∑ e ∈ univ.filter (fun e => d e = i), φ i e = ∑ e, φ (d e) e := by
  rw [← Finset.sum_fiberwise univ d (fun e => φ (d e) e)]
  refine Finset.sum_congr rfl (fun i _ => Finset.sum_congr rfl (fun e he => ?_))
  rw [(Finset.mem_filter.mp he).2]

/-- One feature column: the sum over the nodes of the neighbour sums divided by `m` equals the
column weighed by `∑_{e : s e = n} 1 / m (d e)`. Both sides are `∑_e y (s e) / m (d e)`. -/
theorem mean_col (s d : ε → ι) (m y : ι → ℝ) :
    ∑ i, (∑ e ∈ univ.filter (fun e => d e = i), y (s e)) / m i
      = ∑ n, y n * ∑ e ∈ univ.filter (fun e => s e = n), 1 / m (d e) := by
  have hL : ∑ i, (∑ e ∈ univ.filter (fun e => d e = i), y (s e)) / m i
      = ∑ e, y (s e) / m (d e) := by
    rw [← sum_fibres d (fun i e => y (s e) / m i)]
    exact Finset.sum_congr rfl (fun i _ => Finset.sum_div _ _ _)
  have hR : ∑ n, y n * ∑ e ∈ univ.filter (fun e => s e = n), 1 / m (d e)
      = ∑ e, y (s e) / m (d e) := by
    calc ∑ n, y n * ∑ e ∈ univ.filter (fun e => s e = n), 1 / m (d e)
        = ∑ n, ∑ e ∈ univ.filter (fun e => s e = n), y n * (1 / m (d e)) :=
          Finset.sum_congr rfl (fun n _ => Finset.mul_sum _ _ _)
      _ = ∑ e, y (s e) * (1 / m (d e)) := sum_fibres s (fun n e => y n * (1 / m (d e)))
      _ = ∑ e, y (s e) / m (d e) := Finset.sum_congr rfl (fun e _ => mul_one_div _ _)
  rw [hL, hR]

/-- The neighbour-mean term of the layer, summed over the nodes. -/
theorem mean_term (s d : ε → ι) (m : ι → ℝ) (x : ι → κ → ℝ) (W : κ → ℝ) :
    ∑ i, ∑ f, ((∑ e ∈ univ.filter (fun e => d e = i), x (s e) f) / m i) * W f
      = ∑ f, (∑ n, x n f * ∑ e ∈ univ.filter (fun e => s e = n), 1 / m (d e)) * W f := by
  rw [Finset.sum_comm]
  refine Finset.sum_congr rfl (fun f _ => ?_)
  rw [← Finset.sum_mul, mean_col s d m (fun n => x n f)]

/-- The self term of the layer, summed over the nodes. -/
theorem self_term (x : ι → κ → ℝ) (W : κ → ℝ) :
    ∑ i, ∑ f, x i f * W f = ∑ f, (∑ n, x n f) * W f := by
  rw [Finset.sum_comm]
  exact Finset.sum_congr rfl (fun f _ => (Finset.sum_mul _ _ _).symm)

/-- Scaling every coefficient of a linear form by `1 / N` divides the form by `N`. -/
theorem scaled_form (N : ℝ) (a W : κ → ℝ) :
    ∑ f, (a f * (1 / N)) * W f = (∑ f, a f * W f) / N := by
  rw [Finset.sum_div]
  exact Finset.sum_congr rfl (fun f _ => by ring)

/-- The mean over the nodes of the two layer outputs' sum, in streamed form. -/
theorem mean_rows (N : ℝ) (hN : N ≠ 0) (hcard : (Fintype.card ι : ℝ) = N)
    (x : ι → κ → ℝ) (sp dp sn dn : ε → ι) (mp mn : ι → ℝ) (WlP WrP WlN WrN : κ → ℝ) (bP bN : ℝ) :
    (∑ i, (((∑ f, ((∑ e ∈ univ.filter (fun e => dp e = i), x (sp e) f) / mp i) * WlP f)
              + bP + ∑ f, x i f * WrP f)
          + ((∑ f, ((∑ e ∈ univ.filter (fun e => dn e = i), x (sn e) f) / mn i) * WlN f)
              + bN + ∑ f, x i f * WrN f))) / N
      = ((∑ f, ((∑ n, x n f * ∑ e ∈ univ.filter (fun e => sp e = n), 1 / mp (dp e)) * (1 / N)) * WlP f)
          + (∑ f, ((∑ n, x n f * ∑ e ∈ univ.filter (fun e => sn e = n), 1 / mn (dn e)) * (1 / N)) * WlN f)
          + (∑ f, ((∑ n, x n f) * (1 / N)) * (WrP f + WrN f)))
        + (bP + bN) := by
  simp only [Finset.sum_add_distrib, Finset.sum_const, Finset.card_univ, nsmul_eq_mul, hcard]
  rw [mean_term, mean_term, self_term, self_term, scaled_form, scaled_form, scaled_form]
  simp only [mul_add, Finset.sum_add_distrib]
  field_simp
  ring

end General

/-- The reference's row is the streamed row. -/
theorem refRow_eq_kerRow (x : Fin NN → Fin FF → ℝ) (gp gn : Edges)
    (WlP WrP WlN WrN : Fin FF → Fin FF → ℝ) (blP blN : Fin FF → ℝ) (h : Fin FF) :
    refRow x gp gn WlP WrP WlN WrN blP blN h = kerRow x gp gn WlP WrP WlN WrN blP blN h := by
  have hcard : (Fintype.card (Fin NN) : ℝ) = 100000 := by
    rw [Fintype.card_fin]; norm_num
  unfold refRow kerRow sage Edges.agg Edges.q Edges.inv
  exact mean_rows (100000 : ℝ) (by norm_num) hcard x gp.src gp.dst gn.src gn.dst
    (fun i => max (gp.cnt i) 1) (fun i => max (gn.cnt i) 1)
    (fun f => WlP f h) (fun f => WrP f h) (fun f => WlN f h) (fun f => WrN f h) (blP h) (blN h)

end Cert.Spec
-- ==== Proof.Consts.lean ====
/-
  The float literals the two programs spell, as the extended reals their bit patterns denote:
  zero, one, and one hundred thousand (the number of nodes the reference's mean divides by).
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `100000.0` denotes the real `100000`. -/
theorem ofBits_100000 : Ideal.ofBits .f32 0x47C35000#32 = ((100000 : ℝ) : EReal) := by
  simp [Ideal.ofBits, Ideal.ieee, -EReal.coe_mul]; norm_num

end Cert.Consts

end
-- ==== Proof.RefSage.lean ====
/-
  One edge type's layer of the reference, read at a node and a hidden unit.

  The layer takes, for every edge, the feature row of the edge's source (a row gather), adds these rows up at the
  edge's destination (a scatter with addition into a zero matrix), counts the edges arriving at each node the same
  way (a scatter of ones into a zero column), divides the row sums by the count (by one at a node with no incoming
  edge), multiplies by `Wl`, adds the bias, and adds the node's own row times `Wr`.

  First the two index-driven operations are read at an index, for any extents: the row gather reads the operand's row
  named by the start index (signed, clamped into the operand), and the row scatter-add gives, at `(i, f)`, the operand's
  element plus the sum of the updates' elements `(e, f)` over the rows `e` whose index is `i`. Then the stages of the
  layer are read one after another, every entry a real number, down to the real expression of the specification.
-/
import proofs.«429977_j70935679860741_3_alg».proof.Proof.Gen.ReferenceIdeal.Read
import proofs.«429977_j70935679860741_3_alg».proof.Proof.Lift
import proofs.«429977_j70935679860741_3_alg».proof.Proof.Consts

noncomputable section

open scoped BigOperators

namespace Cert.RefSage

open Idealize.ShloMosaic Idealize.ShloMosaic.ValueIdx Cert.ReferenceIdeal Cert.ReferenceIdeal.Read Cert.Spec Cert.Lift

/-! ## The row scatter-add and the row gather, read at an index -/

/-- An update lands at operand index `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hr =>
      have h' := Option.some.inj h
      subst h'
      have := (hr a).1
      simp only [Int.toNat_of_nonneg this]
    · cases h
  · intro h
    have hr : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hr]
    congr 1
    funext a
    apply Fin.ext
    show (d.start j idx a + (d.window j a : ℤ)).toNat = (i a).val
    rw [h a]
    exact Int.toNat_natCast _

/-- Row scatter: with one index per update row (the index column `[E, 1]`), rows of width `C` scattered onto the rows
    of an `[N, C]` operand, update element `(e, f')` lands at `(i, f)` exactly when row `e`'s index is `i` and `f' = f`. -/
theorem rows_resultIdx?_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (j : (⟨2, ![E, C]⟩ : Shape).Idx) (i : Fin N) (f : Fin C) :
    d.resultIdx? j idx = some (ix2 i f) ↔ (idx (ix2 (j 0) 0)).toInt = (i.val : ℤ) ∧ j 1 = f := by
  obtain ⟨uw, iw, sd, iv, wf⟩ := d
  simp only at huw hiw hsd hiv
  subst huw hiw hsd hiv
  rw [resultIdx?_eq_some_iff]
  set D : ScatterDims ⟨2, ![N, C]⟩ ⟨2, ![E, 1]⟩ ⟨2, ![E, C]⟩ :=
    { updateWindowDims := [1], insertedWindowDims := [0], scatterDimsToOperandDims := [0], indexVectorDim := 1, wf := wf } with hD
  have hsi : D.siIdx j ⟨List.idxOf (0 : Fin 2) D.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  have hk : D.sKept = [1] := rfl
  have h00 : D.start j idx 0 = (idx (ix2 (j 0) 0)).toInt := by
    unfold ScatterDims.start
    rw [dif_pos (show (0 : Fin 2) ∈ D.scatterDimsToOperandDims from List.mem_singleton.mpr rfl)]
    exact congrArg (fun k => (idx k).toInt) hsi
  have h01 : D.start j idx 1 = 0 := by
    unfold ScatterDims.start
    rw [dif_neg (show ¬ (1 : Fin 2) ∈ ([0] : List (Fin 2)) by decide)]
  have hw0 : D.window j 0 = 0 := by
    unfold ScatterDims.window
    rw [dif_neg (show ¬ (0 : Fin 2) ∈ D.sKept by rw [hk]; simp)]
  have hw1 : D.window j 1 = (j 1).val := by
    unfold ScatterDims.window
    rw [dif_pos (show (1 : Fin 2) ∈ D.sKept by rw [hk]; exact List.mem_singleton.mpr rfl)]
    rfl
  constructor
  · intro h
    have e0 : D.start j idx 0 + (D.window j 0 : ℤ) = (i.val : ℤ) := h 0
    have e1 : D.start j idx 1 + (D.window j 1 : ℤ) = (f.val : ℤ) := h 1
    rw [h00, hw0] at e0
    rw [h01, hw1] at e1
    refine ⟨by simpa using e0, Fin.ext ?_⟩
    have : ((j 1).val : ℤ) = (f.val : ℤ) := by simpa using e1
    exact_mod_cast this
  · rintro ⟨e0, e1⟩ a
    match a with
    | ⟨0, _⟩ =>
      show D.start j idx 0 + (D.window j 0 : ℤ) = (i.val : ℤ)
      rw [h00, hw0, e0]; simp
    | ⟨1, _⟩ =>
      show D.start j idx 1 + (D.window j 1 : ℤ) = (f.val : ℤ)
      rw [h01, hw1, e1]; simp

/-- THE ROW SCATTER-ADD READ AT `(i, f)`: the operand's element plus the sum, over the update rows `e` whose index is
    `i`, of the update's element `(e, f)`. The indices are given as a function `dst` into the operand's rows. -/
theorem scatterAdd_rows_apply {N C E w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (dst : Fin E → Fin N)
    (hdst : ∀ e, (idx (ix2 e 0)).toInt = ((dst e).val : ℤ)) (i : Fin N) (f : Fin C) :
    Host.scatterAdd d x idx upd (ix2 i f)
      = (x (ix2 i f) : EReal) + ∑ e ∈ Finset.univ.filter (fun e => dst e = i), (upd (ix2 e f) : EReal) := by
  show Ideal.hostScatterAdd d x idx upd (ix2 i f) = _
  unfold Ideal.hostScatterAdd
  congr 1
  refine Finset.sum_nbij' (fun j => j 0) (fun e => ix2 e f) ?_ ?_ ?_ ?_ ?_
  · intro j hj
    have hj' := (rows_resultIdx?_iff d huw hiw hsd hiv idx j i f).1 (Finset.mem_filter.1 hj).2
    refine Finset.mem_filter.2 ⟨Finset.mem_univ _, Fin.ext ?_⟩
    have := (hdst (j 0)).symm.trans hj'.1
    exact_mod_cast this
  · intro e he
    refine Finset.mem_filter.2 ⟨Finset.mem_univ _, (rows_resultIdx?_iff d huw hiw hsd hiv idx _ i f).2 ⟨?_, rfl⟩⟩
    show (idx (ix2 e 0)).toInt = (i.val : ℤ)
    rw [hdst e, (Finset.mem_filter.1 he).2]
  · intro j hj
    have hj' := (rows_resultIdx?_iff d huw hiw hsd hiv idx j i f).1 (Finset.mem_filter.1 hj).2
    show ix2 (j 0) f = j
    rw [← hj'.2]; exact (eq_ix2 j).symm
  · intro e _
    rfl
  · intro j hj
    have hj' := (rows_resultIdx?_iff d huw hiw hsd hiv idx j i f).1 (Finset.mem_filter.1 hj).2
    show upd j = upd (ix2 (j 0) f)
    rw [← hj'.2]; exact congrArg upd (eq_ix2 j)

/-- THE ROW GATHER READ AT `(e, f)`: with one start index per result row (the index column `[E, 1]`) and whole rows of
    width `C` taken from an `[N, C]` operand, the result's element `(e, f)` is the operand's at row `idx[e, 0]`, read
    signed and clamped into `[0, N − 1]`, and column `f`. -/
theorem gather_rows_apply {α : Type} {N C E w : Nat} (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (x : (⟨2, ![N, C]⟩ : Shape).Idx → α) (idx : IVec ⟨2, ![E, 1]⟩ w) (e : Fin E) (f : Fin C) (hN : 0 < N) :
    Host.gather d x idx (ix2 e f) = x (ix2 ⟨min (idx (ix2 e 0)).toInt.toNat (N - 1), by omega⟩ f) := by
  obtain ⟨od, cd, ob, sb, sm, iv, ss, wf⟩ := d
  simp only at hod hcd hob hsb hsm hiv
  subst hod hcd hob hsb hsm hiv
  set D : GatherDims ⟨2, ![N, C]⟩ ⟨2, ![E, 1]⟩ ⟨2, ![E, C]⟩ :=
    { offsetDims := [1], collapsedSliceDims := [0], operandBatchingDims := [], startIndicesBatchingDims := [],
      startIndexMap := [0], indexVectorDim := 1, sliceSizes := ss, wf := wf } with hD
  have hk : D.sKept = [1] := rfl
  have hss : D.sliceSizes 0 = 1 := D.slice_collapsed 0 (List.mem_singleton.mpr rfl)
  have hsi : D.siIdx (ix2 e f) ⟨List.idxOf (0 : Fin 2) D.startIndexMap,
      List.idxOf_lt_length_iff.2 (List.mem_singleton.mpr rfl)⟩ = ix2 e 0 := by
    funext b; refine Fin.ext ?_
    match b with
    | ⟨0, _⟩ => rfl
    | ⟨1, _⟩ => rfl
  unfold Host.gather
  congr 1
  funext a
  refine Fin.ext ?_
  match a with
  | ⟨0, _⟩ =>
    show D.start (ix2 e f) idx 0 + D.batchCoord (ix2 e f) 0 + D.offCoord (ix2 e f) 0 = min (idx (ix2 e 0)).toInt.toNat (N - 1)
    rw [GatherDims.batchCoord_eq_zero _ _ _ List.not_mem_nil,
      GatherDims.offCoord_eq_zero _ _ _ (show ¬ (0 : Fin 2) ∈ D.sKept by rw [hk]; simp)]
    simp only [Nat.add_zero]
    unfold GatherDims.start
    rw [dif_pos (show (0 : Fin 2) ∈ D.startIndexMap from List.mem_singleton.mpr rfl), hsi, hss]
    rfl
  | ⟨1, _⟩ =>
    show D.start (ix2 e f) idx 1 + D.batchCoord (ix2 e f) 1 + D.offCoord (ix2 e f) 1 = f.val
    rw [GatherDims.batchCoord_eq_zero _ _ _ List.not_mem_nil]
    have hs : D.start (ix2 e f) idx 1 = 0 := by
      unfold GatherDims.start
      rw [dif_neg (show ¬ (1 : Fin 2) ∈ ([0] : List (Fin 2)) by decide)]
    have ho : D.offCoord (ix2 e f) 1 = f.val := by
      unfold GatherDims.offCoord
      rw [dif_pos (show (1 : Fin 2) ∈ D.sKept by rw [hk]; exact List.mem_singleton.mpr rfl)]
      rfl
    rw [hs, ho, Nat.zero_add]

/-! ## Sums and maxima of reals inside the extended reals -/

/-- The maximum of two reals, taken in the extended reals, is the real maximum. -/
theorem coe_max (a b : ℝ) : max (a : EReal) (b : EReal) = ((max a b : ℝ) : EReal) :=
  (EReal.coe_strictMono.monotone.map_max).symm

/-- A finite sum of extended reals that are each a real is the real sum. -/
theorem sum_coe {ι : Type*} (s : Finset ι) (A : ι → EReal) (r : ι → ℝ) (h : ∀ e, A e = ((r e : ℝ) : EReal)) :
    ∑ e ∈ s, A e = ((∑ e ∈ s, r e : ℝ) : EReal) :=
  (Finset.sum_congr rfl fun e _ => h e).trans (coe_sum s r)

/-! ## The edge index columns -/

/-- A signed word that reads as a natural number is not below the zero word. -/
theorem cmpi_slt_zero_of_nat (a : BitVec 32) (n : Nat) (h : a.toInt = (n : ℤ)) : IntOp.cmpi .slt a 0#32 = 0#1 := by
  have : a.slt 0#32 = false := by
    rw [BitVec.slt_eq_decide, h]
    simp
  simp only [IntOp.cmpi, this]
  rfl

/-- The source column: row `e` holds edge `e`'s source node (the wrap of a negative index does not apply). -/
theorem src_col (x1 : (⟨S2x1600000, .i32⟩ : BufTy).Contents (Elt Ideal)) (g : Edges) (he : IsEdges x1 g) (e : Fin EE) :
    (val_main_v9 (F := Ideal) x1 (ix2 e 0)).toInt = ((g.src e).val : ℤ) := by
  have h0 : idx_main_v0 (idx_main_v1 (idx_main_v9 (ix2 e (0 : Fin 1)))) = ix2 (0 : Fin 2) e := by
    funext a; refine Fin.ext ?_
    match a with
    | ⟨0, _⟩ => rfl
    | ⟨1, _⟩ => exact Nat.mod_eq_of_lt e.isLt
  have h1 : val_main_v1 (F := Ideal) x1 (idx_main_v9 (ix2 e (0 : Fin 1))) = x1 (ix2 (0 : Fin 2) e) := by
    rw [val_main_v1_apply, val_main_v0_apply, h0]
  rw [val_main_v9_apply, val_main_v8_apply, val_main_v5_apply, h1, val_main_v4_apply, val_main_c_apply,
    cmpi_slt_zero_of_nat _ _ (he e).1, select_zero]
  exact (he e).1

/-- The destination column: row `e` holds edge `e`'s destination node. -/
theorem dst_col (x1 : (⟨S2x1600000, .i32⟩ : BufTy).Contents (Elt Ideal)) (g : Edges) (he : IsEdges x1 g) (e : Fin EE) :
    (val_main_v12 (F := Ideal) x1 (ix2 e 0)).toInt = ((g.dst e).val : ℤ) := by
  have h0 : idx_main_v2 (idx_main_v3 (idx_main_v12 (ix2 e (0 : Fin 1)))) = ix2 (1 : Fin 2) e := by
    funext a; refine Fin.ext ?_
    match a with
    | ⟨0, _⟩ => rfl
    | ⟨1, _⟩ => exact Nat.mod_eq_of_lt e.isLt
  rw [val_main_v12_apply, val_main_v3_apply, val_main_v2_apply, h0]
  exact (he e).2

/-- The destination column again (the in-degree count reads its own copy of it). -/
theorem dst_col' (x1 : (⟨S2x1600000, .i32⟩ : BufTy).Contents (Elt Ideal)) (g : Edges) (he : IsEdges x1 g) (e : Fin EE) :
    (val_main_v16 (F := Ideal) x1 (ix2 e 0)).toInt = ((g.dst e).val : ℤ) := by
  have h0 : idx_main_v2 (idx_main_v3 (idx_main_v16 (ix2 e (0 : Fin 1)))) = ix2 (1 : Fin 2) e := by
    funext a; refine Fin.ext ?_
    match a with
    | ⟨0, _⟩ => rfl
    | ⟨1, _⟩ => exact Nat.mod_eq_of_lt e.isLt
  rw [val_main_v16_apply, val_main_v3_apply, val_main_v2_apply, h0]
  exact (he e).2

/-! ## The layer, stage by stage -/

/-- The gathered rows: row `e` is the feature row of edge `e`'s source. -/
theorem gathered_apply (x0 : (⟨S100000x128, .f32⟩ : BufTy).Contents (Elt Ideal)) (x1 : (⟨S2x1600000, .i32⟩ : BufTy).Contents (Elt Ideal))
    (xr : Fin NN → Fin FF → ℝ) (g : Edges) (hx : IsReal2 x0 xr) (he : IsEdges x1 g) (e : Fin EE) (f : Fin FF) :
    val_main_v10 (F := Ideal) x0 x1 (ix2 e f) = ((xr (g.src e) f : ℝ) : EReal) := by
  unfold val_main_v10
  have hg := gather_rows_apply (N := 100000) (C := 128) (E := 1600000)
    gather_S100000x128_S1600000x1_S1600000x128_1_0_n_n_0_1_1128 rfl rfl rfl rfl rfl rfl x0
    (val_main_v9 (F := Ideal) x1) e f (Nat.succ_pos _)
  rw [hg]
  have hs := src_col x1 g he e
  have hm : min (val_main_v9 (F := Ideal) x1 (ix2 e 0)).toInt.toNat (100000 - 1) = (g.src e).val := by
    rw [hs, Int.toNat_natCast]
    have : (g.src e).val < 100000 := (g.src e).isLt
    omega
  rw [← hx (g.src e) f]
  exact congrArg x0 (congrArg (fun r => ix2 r f) (Fin.ext hm))

/-- The neighbour sums: at node `i`, feature `f`, the sum of the source rows over `i`'s incoming edges. -/
theorem summed_apply (x0 : (⟨S100000x128, .f32⟩ : BufTy).Contents (Elt Ideal)) (x1 : (⟨S2x1600000, .i32⟩ : BufTy).Contents (Elt Ideal))
    (xr : Fin NN → Fin FF → ℝ) (g : Edges) (hx : IsReal2 x0 xr) (he : IsEdges x1 g) (i : Fin NN) (f : Fin FF) :
    val_main_v13 (F := Ideal) x0 x1 (ix2 i f) = ((g.agg xr i f : ℝ) : EReal) := by
  have hb := dst_col x1 g he
  have hu : ∀ e : Fin EE, val_main_v10 (F := Ideal) x0 x1 (ix2 e f) = ((xr (g.src e) f : ℝ) : EReal) :=
    fun e => gathered_apply x0 x1 xr g hx he e f
  have h0 : (val_main_v11 (F := Ideal) (ix2 i f) : EReal) = 0 := by
    rw [val_main_v11_apply, val_main_cst_apply, Ideal.ofBits_def, Cert.Consts.ofBits_zero]
  unfold val_main_v13
  generalize val_main_v11 (F := Ideal) = a at h0 ⊢
  generalize val_main_v12 (F := Ideal) x1 = b at hb ⊢
  generalize val_main_v10 (F := Ideal) x0 x1 = u at hu ⊢
  refine (scatterAdd_rows_apply (N := 100000) (C := 128) (E := 1600000)
    scatter_S100000x128_S1600000x1_S1600000x128_1_0_0_1 rfl rfl rfl rfl a b u g.dst hb i f).trans ?_
  rw [h0, zero_add]
  exact sum_coe _ _ _ hu

/-- The in-degree column: at node `i`, the number of `i`'s incoming edges. -/
theorem counted_apply (x1 : (⟨S2x1600000, .i32⟩ : BufTy).Contents (Elt Ideal)) (g : Edges) (he : IsEdges x1 g) (i : Fin NN) :
    val_main_v17 (F := Ideal) x1 (ix2 i 0) = ((g.cnt i : ℝ) : EReal) := by
  have hb := dst_col' x1 g he
  have hu : ∀ e : Fin EE, (val_main_v14 (F := Ideal) (ix2 e 0) : EReal) = (((fun _ => 1 : Fin EE → ℝ) e : ℝ) : EReal) := by
    intro e
    rw [val_main_v14_apply, val_main_cst_1_apply, Ideal.ofBits_def, Cert.Consts.ofBits_one]
  have h0 : (val_main_v15 (F := Ideal) (ix2 i 0) : EReal) = 0 := by
    rw [val_main_v15_apply, val_main_cst_2_apply, Ideal.ofBits_def, Cert.Consts.ofBits_zero]
  unfold val_main_v17
  generalize val_main_v15 (F := Ideal) = a at h0 ⊢
  generalize val_main_v16 (F := Ideal) x1 = b at hb ⊢
  generalize val_main_v14 (F := Ideal) = u at hu ⊢
  refine (scatterAdd_rows_apply (N := 100000) (C := 1) (E := 1600000)
    scatter_S100000x1_S1600000x1_S1600000x1_1_0_0_1 rfl rfl rfl rfl a b u g.dst hb i 0).trans ?_
  rw [h0, zero_add]
  exact sum_coe _ _ _ hu

/-- The divisor: at every feature of node `i`, the in-degree, or one where it is smaller. -/
theorem denom_apply (x1 : (⟨S2x1600000, .i32⟩ : BufTy).Contents (Elt Ideal)) (g : Edges) (he : IsEdges x1 g) (i : Fin NN) (f : Fin FF) :
    val_main_v20 (F := Ideal) x1 (ix2 i f) = ((max (g.cnt i) 1 : ℝ) : EReal) := by
  have hi : idx_main_v20 (ix2 i f) = ix2 i (0 : Fin 1) := by
    funext a
    match a with
    | ⟨0, _⟩ => rfl
    | ⟨1, _⟩ => rfl
  rw [val_main_v20_apply, hi, val_main_v19_apply, counted_apply x1 g he i, val_main_v18_apply, val_main_cst_3_apply,
    Ideal.ofBits_def, Cert.Consts.ofBits_one, Ideal.maximumf_def, coe_max]

/-- The neighbour mean: the neighbour sum over the divisor, a quotient of reals since the divisor is at least one. -/
theorem mean_apply (x0 : (⟨S100000x128, .f32⟩ : BufTy).Contents (Elt Ideal)) (x1 : (⟨S2x1600000, .i32⟩ : BufTy).Contents (Elt Ideal))
    (xr : Fin NN → Fin FF → ℝ) (g : Edges) (hx : IsReal2 x0 xr) (he : IsEdges x1 g) (i : Fin NN) (f : Fin FF) :
    val_main_v21 (F := Ideal) x0 x1 (ix2 i f) = ((g.agg xr i f / max (g.cnt i) 1 : ℝ) : EReal) := by
  have hne : max (g.cnt i) 1 ≠ 0 := ne_of_gt (lt_of_lt_of_le one_pos (le_max_right _ _))
  rw [val_main_v21_apply, summed_apply x0 x1 xr g hx he i f, denom_apply x1 g he i f, Ideal.hostDivf_def,
    Ideal.div_coe hne, ← EReal.coe_mul, mul_one_div]

/-- The mean times `Wl`. -/
theorem linear_apply (x0 : (⟨S100000x128, .f32⟩ : BufTy).Contents (Elt Ideal)) (x1 : (⟨S2x1600000, .i32⟩ : BufTy).Contents (Elt Ideal))
    (x3 : (⟨S128x128, .f32⟩ : BufTy).Contents (Elt Ideal))
    (xr : Fin NN → Fin FF → ℝ) (g : Edges) (Wl : Fin FF → Fin FF → ℝ) (hx : IsReal2 x0 xr) (he : IsEdges x1 g) (h3 : IsReal2 x3 Wl)
    (i : Fin NN) (h : Fin FF) :
    val_main_v22 (F := Ideal) x0 x1 x3 (ix2 i h)
      = ((∑ f : Fin FF, (g.agg xr i f / max (g.cnt i) 1) * Wl f h : ℝ) : EReal) := by
  rw [val_main_v22_apply]
  refine sum_coe _ _ _ (fun k => ?_)
  have hl : lidx_main_v22 (ix2 i h) k = ix2 i k := by
    funext a
    match a with
    | ⟨0, _⟩ => rfl
    | ⟨1, _⟩ => rfl
  have hr : ridx_main_v22 (ix2 i h) k = ix2 k h := by
    funext a
    match a with
    | ⟨0, _⟩ => rfl
    | ⟨1, _⟩ => rfl
  rw [hl, hr, mean_apply x0 x1 xr g hx he i k, h3 k h, ← EReal.coe_mul]

/-- The bias row, laid along the nodes. -/
theorem bias_apply (x4 : (⟨S128, .f32⟩ : BufTy).Contents (Elt Ideal)) (bl : Fin FF → ℝ) (h4 : IsReal1 x4 bl) (i : Fin NN) (h : Fin FF) :
    val_main_v24 (F := Ideal) x4 (ix2 i h) = ((bl h : ℝ) : EReal) := by
  have hi : idx_main_v23 (idx_main_v24 (ix2 i h)) = ix1 h := by
    funext a
    match a with
    | ⟨0, _⟩ => rfl
  rw [val_main_v24_apply, val_main_v23_apply, hi, h4 h]

/-- The node's own row times `Wr`. -/
theorem own_apply (x0 : (⟨S100000x128, .f32⟩ : BufTy).Contents (Elt Ideal)) (x5 : (⟨S128x128, .f32⟩ : BufTy).Contents (Elt Ideal))
    (xr : Fin NN → Fin FF → ℝ) (Wr : Fin FF → Fin FF → ℝ) (hx : IsReal2 x0 xr) (h5 : IsReal2 x5 Wr) (i : Fin NN) (h : Fin FF) :
    val_main_v26 (F := Ideal) x0 x5 (ix2 i h) = ((∑ f : Fin FF, xr i f * Wr f h : ℝ) : EReal) := by
  rw [val_main_v26_apply]
  refine sum_coe _ _ _ (fun k => ?_)
  have hl : lidx_main_v26 (ix2 i h) k = ix2 i k := by
    funext a
    match a with
    | ⟨0, _⟩ => rfl
    | ⟨1, _⟩ => rfl
  have hr : ridx_main_v26 (ix2 i h) k = ix2 k h := by
    funext a
    match a with
    | ⟨0, _⟩ => rfl
    | ⟨1, _⟩ => rfl
  rw [hl, hr, hx i k, h5 k h, ← EReal.coe_mul]

/-! ## The layer -/

theorem sage_pos (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal))
    (xr : Fin NN → Fin FF → ℝ) (g : Edges) (Wl Wr : Fin FF → Fin FF → ℝ) (bl : Fin FF → ℝ)
    (hx : IsReal2 x0 xr) (he : IsEdges x1 g) (h3 : IsReal2 x3 Wl) (h4 : IsReal1 x4 bl) (h5 : IsReal2 x5 Wr)
    (i : Fin NN) (h : Fin FF) :
    val_main_v27 (F := Ideal) x0 x1 x3 x4 x5 (ix2 i h) = ((sage xr g Wl Wr bl i h : ℝ) : EReal) := by
  rw [val_main_v27_apply, val_main_v25_apply, linear_apply x0 x1 x3 xr g Wl hx he h3 i h, bias_apply x4 bl h4 i h,
    own_apply x0 x5 xr Wr hx h5 i h, Ideal.addf_def, Ideal.addf_def, ← EReal.coe_add, ← EReal.coe_add]
  rfl

/-- The two edge types' layers are one function of their arguments: the program spells the same operations twice. -/
theorem layer_neg_eq (x0 : (⟨S100000x128, .f32⟩ : BufTy).Contents (Elt Ideal)) (x2 : (⟨S2x1600000, .i32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) :
    val_main_v55 (F := Ideal) x0 x2 x6 x7 x8 = val_main_v27 (F := Ideal) x0 x2 x6 x7 x8 := rfl

theorem sage_neg (x0 : (⟨S100000x128, .f32⟩ : BufTy).Contents (Elt Ideal)) (x2 : (⟨S2x1600000, .i32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal))
    (xr : Fin NN → Fin FF → ℝ) (g : Edges) (Wl Wr : Fin FF → Fin FF → ℝ) (bl : Fin FF → ℝ)
    (hx : IsReal2 x0 xr) (he : IsEdges x2 g) (h6 : IsReal2 x6 Wl) (h7 : IsReal1 x7 bl) (h8 : IsReal2 x8 Wr)
    (i : Fin NN) (h : Fin FF) :
    val_main_v55 (F := Ideal) x0 x2 x6 x7 x8 (ix2 i h) = ((sage xr g Wl Wr bl i h : ℝ) : EReal) := by
  rw [layer_neg_eq]
  exact sage_pos x0 x2 x6 x7 x8 xr g Wl Wr bl hx he h6 h7 h8 i h

end Cert.RefSage

end
-- ==== Proof.RefTotal.lean ====
/-
  The reference's result row: the mean over the nodes of the two edge types' layer outputs.

  The last stages add the two layers' outputs entry by entry, sum that array down its node axis starting
  from zero, and divide the row by the constant one hundred thousand. Every summand is a real number (the
  sum of the two layers' real outputs at that node), so the column sum is the real sum; dividing a real by
  a nonzero real constant is the real quotient. That is the specification's row.
-/
import proofs.«429977_j70935679860741_3_alg».proof.Proof.RefSage
import proofs.«429977_j70935679860741_3_alg».proof.Proof.Consts
import Mathlib.Tactic.NormNum

noncomputable section

open scoped BigOperators

namespace Cert.RefTotal

open Idealize.ShloMosaic Idealize.ShloMosaic.ValueIdx Cert.ReferenceIdeal Cert.ReferenceIdeal.Read Cert.Spec Cert.Lift

/-- Entry `(0, h)` of the result row is lane `h` of the column sums, whose `k`-th summand sits at `(k, h)`. -/
theorem idx_row (h : Fin FF) (k : Fin 100000) :
    idx_main_v57 (idx_main_v58 (ix2 (0 : Fin 1) h)) k = ix2 k h :=
  funext fun a => Fin.ext (by match a with | ⟨0, _⟩ => rfl | ⟨1, _⟩ => rfl)

/-- The sum of the two layers' outputs at node `i`, hidden unit `h`, is the sum of the two real outputs. -/
theorem both_layers (x0 : (⟨S100000x128, .f32⟩ : BufTy).Contents (Elt Ideal)) (x1 x2 : (⟨S2x1600000, .i32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal))
    (x7 : (⟨S128, .f32⟩ : BufTy).Contents (Elt Ideal)) (x8 : (⟨S128x128, .f32⟩ : BufTy).Contents (Elt Ideal))
    (xr : Fin NN → Fin FF → ℝ) (gp gn : Edges) (WlP WrP WlN WrN : Fin FF → Fin FF → ℝ) (blP blN : Fin FF → ℝ)
    (hx : IsReal2 x0 xr) (hp : IsEdges x1 gp) (hn : IsEdges x2 gn) (h3 : IsReal2 x3 WlP) (h4 : IsReal1 x4 blP)
    (h5 : IsReal2 x5 WrP) (h6 : IsReal2 x6 WlN) (h7 : IsReal1 x7 blN) (h8 : IsReal2 x8 WrN) (i : Fin NN) (h : Fin FF) :
    val_main_v56 (F := Ideal) x0 x1 x2 x3 x4 x5 x6 x7 x8 (ix2 i h)
      = ((sage xr gp WlP WrP blP i h + sage xr gn WlN WrN blN i h : ℝ) : EReal) := by
  rw [val_main_v56_apply, Ideal.addf_def,
    Cert.RefSage.sage_pos x0 x1 x3 x4 x5 xr gp WlP WrP blP hx hp h3 h4 h5 i h,
    Cert.RefSage.sage_neg x0 x2 x6 x7 x8 xr gn WlN WrN blN hx hn h6 h7 h8 i h, ← EReal.coe_add]

theorem ref_row (x0 : (⟨S100000x128, .f32⟩ : BufTy).Contents (Elt Ideal)) (x1 x2 : (⟨S2x1600000, .i32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal))
    (x7 : (⟨S128, .f32⟩ : BufTy).Contents (Elt Ideal)) (x8 : (⟨S128x128, .f32⟩ : BufTy).Contents (Elt Ideal))
    (xr : Fin NN → Fin FF → ℝ) (gp gn : Edges) (WlP WrP WlN WrN : Fin FF → Fin FF → ℝ) (blP blN : Fin FF → ℝ)
    (hx : IsReal2 x0 xr) (hp : IsEdges x1 gp) (hn : IsEdges x2 gn) (h3 : IsReal2 x3 WlP) (h4 : IsReal1 x4 blP)
    (h5 : IsReal2 x5 WrP) (h6 : IsReal2 x6 WlN) (h7 : IsReal1 x7 blN) (h8 : IsReal2 x8 WrN) (h : Fin FF) :
    val_main_v60 (F := Ideal) x0 x1 x2 x3 x4 x5 x6 x7 x8 (ix2 (0 : Fin 1) h)
      = ((refRow xr gp gn WlP WrP WlN WrN blP blN h : ℝ) : EReal) := by
  have hsum : ∑ k : Fin 100000, val_main_v56 (F := Ideal) x0 x1 x2 x3 x4 x5 x6 x7 x8
        (idx_main_v57 (idx_main_v58 (ix2 (0 : Fin 1) h)) k)
      = ((∑ i : Fin NN, (sage xr gp WlP WrP blP i h + sage xr gn WlN WrN blN i h) : ℝ) : EReal) := by
    rw [← Cert.Lift.coe_sum]
    refine Finset.sum_congr rfl (fun k _ => ?_)
    rw [idx_row h k]
    exact both_layers x0 x1 x2 x3 x4 x5 x6 x7 x8 xr gp gn WlP WrP WlN WrN blP blN hx hp hn h3 h4 h5 h6 h7 h8 k h
  rw [val_main_v60_apply, val_main_v58_apply, val_main_v59_apply, val_main_cst_11_apply, val_main_v57_apply,
    val_main_cst_10_apply, Ideal.hostDivf_def, Ideal.ofBits_def, Ideal.ofBits_def, Cert.Consts.ofBits_zero,
    Cert.Consts.ofBits_100000, hsum, zero_add, Ideal.div_coe (by norm_num), ← EReal.coe_mul, mul_one_div]
  rfl

end Cert.RefTotal

end
-- ==== Proof.KerArrays.lean ====
/-
  The arrays of the idealized kernel's run, each named at its literal shape over the extended reals: the five arrays
  the pipelined region is entered with, the bias row written before it, the region's output array after the run, and
  the result row after the host lines that follow.
-/
import proofs.«429977_j70935679860741_3_alg».proof.Proof.Gen.KernelIdeal.Frame
import Idealize.ShloMosaic.Lib.ValueIdx

set_option maxRecDepth 16384

noncomputable section

open scoped BigOperators

namespace Cert.KerArrays

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The node features as the region finds them. -/
abbrev X (c : Dev nD) : (⟨2, ![100000, 128]⟩ : Shape).Idx → EReal := V m c main_arg0
/-- The two node-weight columns. -/
abbrev Q (c : Dev nD) : (⟨2, ![100000, 2]⟩ : Shape).Idx → EReal := V m c main_v46
/-- The positive edge type's neighbour matrix. -/
abbrev W1 (c : Dev nD) : (⟨2, ![128, 128]⟩ : Shape).Idx → EReal := V m c main_arg3
/-- The negative edge type's neighbour matrix. -/
abbrev W2 (c : Dev nD) : (⟨2, ![128, 128]⟩ : Shape).Idx → EReal := V m c main_arg6
/-- The sum of the two self matrices. -/
abbrev W3 (c : Dev nD) : (⟨2, ![128, 128]⟩ : Shape).Idx → EReal := V m c main_v47
/-- The sum of the two bias rows. -/
abbrev B (c : Dev nD) : (⟨2, ![1, 128]⟩ : Shape).Idx → EReal := V m c main_v49
/-- The region's output array after the run: one row per core. -/
abbrev O (c : Dev nD) : (⟨3, ![2, 1, 128]⟩ : Shape).Idx → EReal := (dats (F := Ideal) m 0 c).arrAt 5 cfg0.N
/-- The result row after the host lines that follow the region. -/
abbrev R (c : Dev nD) : (⟨2, ![1, 128]⟩ : Shape).Idx → EReal :=
  Pipeline.afterTail₀ cfgs (dats (F := Ideal) m) 0 (V0 m) [hostOps1] c main_v54

end Cert.KerArrays

end
-- ==== Proof.KerForm.lean ====
/-
  The kernel's result as a formula in the arrays the pipelined region is given, over the extended reals.

  The region walks the node rows in ten blocks of ten thousand rows; core `cc` (of two) takes blocks `5·cc … 5·cc + 4`.
  For each block it adds to three running rows of `128` lanes: the block's column sums of `X`, and of `X` weighted
  by column 0 and by column 1 of the two-column weight array `Q`. After its fifth block it scales the three rows by
  the named reciprocal of the node count and multiplies them by three `128 × 128` matrices, adding the three products:
  that row is the core's output. The host then adds the two cores' rows and the bias row.
-/
import Idealize.ShloMosaic.PureOps.Ideal
import Idealize.ShloMosaic.Lib.ValueIdx

noncomputable section

open scoped BigOperators

namespace Cert.KerForm

open Idealize.ShloMosaic Idealize.ShloMosaic.ValueIdx

/-- Row `r` of block `b` of the node axis. -/
def rowOf (b : Fin 10) (r : Fin 10000) : Fin 100000 := ⟨b.val * 10000 + r.val, by have := b.isLt; have := r.isLt; omega⟩

/-- Block `j` of core `cc`. -/
def blockOf (cc : Fin 2) (j : Fin 5) : Fin 10 := ⟨cc.val * 5 + j.val, by have := cc.isLt; have := j.isLt; omega⟩

/-- The column sum of block `b` of `X` at lane `f`. -/
def colSum (X : (⟨2, ![100000, 128]⟩ : Shape).Idx → EReal) (b : Fin 10) (f : Fin 128) : EReal :=
  ∑ r : Fin 10000, X (ix2 (rowOf b r) f)

/-- The column sum of block `b` of `X` weighted by column `k` of `Q`, at lane `f`. -/
def colSumQ (X : (⟨2, ![100000, 128]⟩ : Shape).Idx → EReal) (Q : (⟨2, ![100000, 2]⟩ : Shape).Idx → EReal) (k : Fin 2)
    (b : Fin 10) (f : Fin 128) : EReal :=
  ∑ r : Fin 10000, X (ix2 (rowOf b r) f) * Q (ix2 (rowOf b r) k)

/-- Core `cc`'s running row of plain column sums after its five blocks. -/
def accX (X : (⟨2, ![100000, 128]⟩ : Shape).Idx → EReal) (cc : Fin 2) (f : Fin 128) : EReal :=
  ∑ j : Fin 5, colSum X (blockOf cc j) f

/-- Core `cc`'s running row of weighted column sums after its five blocks. -/
def accQ (X : (⟨2, ![100000, 128]⟩ : Shape).Idx → EReal) (Q : (⟨2, ![100000, 2]⟩ : Shape).Idx → EReal) (k : Fin 2)
    (cc : Fin 2) (f : Fin 128) : EReal :=
  ∑ j : Fin 5, colSumQ X Q k (blockOf cc j) f

/-- The reciprocal of the node count, as the idealized kernel reads its named constant. -/
def invN : EReal := ((1 / 100000 : ℝ) : EReal)

/-- Core `cc`'s output row at hidden unit `h`. -/
def outC (X : (⟨2, ![100000, 128]⟩ : Shape).Idx → EReal) (Q : (⟨2, ![100000, 2]⟩ : Shape).Idx → EReal)
    (W1 W2 W3 : (⟨2, ![128, 128]⟩ : Shape).Idx → EReal) (cc : Fin 2) (h : Fin 128) : EReal :=
  ((∑ f : Fin 128, (accQ X Q 0 cc f * invN) * W1 (ix2 f h))
    + (∑ f : Fin 128, (accQ X Q 1 cc f * invN) * W2 (ix2 f h)))
  + (∑ f : Fin 128, (accX X cc f * invN) * W3 (ix2 f h))

/-- The kernel's result at hidden unit `h`: the two cores' rows added from zero, plus the bias row `B`. -/
def kerForm (X : (⟨2, ![100000, 128]⟩ : Shape).Idx → EReal) (Q : (⟨2, ![100000, 2]⟩ : Shape).Idx → EReal)
    (W1 W2 W3 : (⟨2, ![128, 128]⟩ : Shape).Idx → EReal) (B : (⟨2, ![1, 128]⟩ : Shape).Idx → EReal) (h : Fin 128) : EReal :=
  (0 + ∑ cc : Fin 2, outC X Q W1 W2 W3 cc h) + B (ix2 (0 : Fin 1) h)

end Cert.KerForm

end
-- ==== Proof.KerPrefix.lean ====
/-
  What the host lines before the region leave in the arrays the region reads: the two-column weight array, the
  sum of the two self-term matrices, and the sum of the two bias rows.
-/
import proofs.«429977_j70935679860741_3_alg».proof.Proof.KerArrays
import proofs.«429977_j70935679860741_3_alg».proof.Proof.Lift
import proofs.«429977_j70935679860741_3_alg».proof.Proof.KerForm
import proofs.«429977_j70935679860741_3_alg».proof.Proof.Consts
import Idealize.ShloMosaic.Lib.ValueIdxRank1
import Idealize.ShloMosaic.Lib.StableHlo.Predicate
import Idealize.ShloMosaic.Lib.Pipeline.Value

set_option maxRecDepth 16384

noncomputable section

open scoped BigOperators

namespace Cert.KerPrefix

open Idealize.ShloMosaic Idealize.ShloMosaic.TcCoe Idealize.ShloMosaic.ValueIdx Idealize.SL.Sem
open Cert.KernelIdeal Cert.KernelIdeal.Gen
open Cert.Spec Cert.Lift Cert.KerForm Cert.KerArrays

/-! ## Reads of the shape operations at an index -/

section Reads
variable {α : Type}

/-- Row `k` of a two-row array, sliced out and flattened, read at `e`. -/
theorem row_read {E : Nat} (o : Nat) (k : Fin 2) (hk : k.val = o) (a : (⟨2, ![2, E]⟩ : Shape).Idx → α)
    (h1 : (⟨2, ![2, E]⟩ : Shape).Slices ![o, 0] ⟨2, ![1, E]⟩) (h2 : (⟨2, ![1, E]⟩ : Shape).ShapeCasts ⟨1, ![E]⟩) (e : Fin E) :
    shapeCast ⟨1, ![E]⟩ (extractStridedSlice ⟨2, ![1, E]⟩ ![o, 0] a h1) h2 (ix1 e) = a (ix2 k e) := by
  rw [shapeCast_dropUnit_apply ![E]]
  refine extractStridedSlice_apply _ a h1 _ _ (fun b => ?_)
  match b with
  | ⟨0, _⟩ => show k.val = o + 0; omega
  | ⟨1, _⟩ => show e.val = 0 + e.val; omega

/-- A vector laid out as a one-column array, read at row `e`. -/
theorem col_read {E : Nat} (h : (⟨1, ![E]⟩ : Shape).BroadcastsInDim ⟨2, ![E, 1]⟩ ![0]) (v : (⟨1, ![E]⟩ : Shape).Idx → α) (e : Fin E) :
    broadcastInDim ⟨2, ![E, 1]⟩ ![0] h v (ix2 e (0 : Fin 1)) = v (ix1 e) := by
  refine broadcastInDim_apply _ h v _ _ (fun b => ?_)
  obtain rfl : b = 0 := Subsingleton.elim _ _
  have he := e.isLt
  show e.val = if E = 1 then 0 else e.val
  split <;> omega

theorem ofFin_eq_ix1 {n : Nat} (k : Fin n) : Shape.Idx.ofFin k = ix1 k := by
  funext d; match d with | ⟨0, _⟩ => rfl

theorem ixP_eq_ix2 {n : Nat} (p : Fin n) : StableHlo.Predicate.ixP p = ix2 p (0 : Fin 1) := by
  funext d; match d with | ⟨0, _⟩ => rfl | ⟨1, _⟩ => rfl

/-- THE TAKE READ. A rank-1 table gathered through an index column whose row `e` is the node number `f e`: position `e`
    reads the table at `f e` (the clamp leaves an index in range where it is). -/
theorem take_read {N E w : Nat} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w)
    (f : Fin E → Fin N) (hf : ∀ e, (idx (ix2 e (0 : Fin 1))).toInt = ((f e).val : ℤ)) (e : Fin E) :
    Host.gather d x idx (ix1 e) = x (ix1 (f e)) := by
  have hN : 0 < N := Nat.lt_of_le_of_lt (Nat.zero_le _) (f e).isLt
  rw [← ofFin_eq_ix1, StableHlo.Predicate.gather_take d hcoll hob hsim hivd x idx e hN, ofFin_eq_ix1]
  congr 2
  apply Fin.ext
  show min (idx (StableHlo.Predicate.ixP e)).toInt.toNat (N - 1) = (f e).val
  rw [ixP_eq_ix2, hf, Int.toNat_natCast]
  have := (f e).isLt
  omega

end Reads

/-! ## The scatter-add of a rank-1 operand through an index column -/

section Scatter
variable {N E w : Nat} (d : ScatterDims ⟨1, ![N]⟩ ⟨2, ![E, 1]⟩ ⟨1, ![E]⟩)

/-- With the operand's one axis inserted, an update has no window coordinate. -/
theorem scatter_window (hiw : d.insertedWindowDims = [0]) (j : (⟨1, ![E]⟩ : Shape).Idx) : d.window j 0 = 0 := by
  unfold ScatterDims.window
  rw [dif_neg]
  simp [ScatterDims.sKept, Shape.kept, hiw]

/-- Update `e`'s start on the operand's axis is row `e` of the index column, read signed. -/
theorem scatter_start (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hX : ∀ X : Fin 1, ((ix1 e : (⟨1, ![E]⟩ : Shape).Idx) X).val = e.val := fun X => by
      have hX : X = 0 := Subsingleton.elim _ _
      subst hX; rfl
    exact hX _
  | ⟨1, _⟩ =>
    unfold ScatterDims.siIdx
    rw [dif_pos (by rw [hivd])]
    apply Fin.ext
    show List.idxOf (0 : Fin 1) d.scatterDimsToOperandDims = 0
    rw [hsd]; simp

/-- Where row `e` of the index column is the node number `f e`, update `e` lands on node `i` exactly when `f e = i`. -/
theorem scatter_lands (hiw : d.insertedWindowDims = [0]) (hsd : d.scatterDimsToOperandDims = [0]) (hivd : d.indexVectorDim = 1)
    (idx : IVec ⟨2, ![E, 1]⟩ w) (f : Fin E → Fin N) (hf : ∀ e, (idx (ix2 e (0 : Fin 1))).toInt = ((f e).val : ℤ))
    (e : Fin E) (i : Fin N) :
    d.resultIdx? (ix1 e) idx = some (ix1 i) ↔ f e = i := by
  have hs : d.start (ix1 e) idx 0 + (d.window (ix1 e) 0 : ℤ) = ((f e).val : ℤ) := by
    rw [scatter_start d hsd hivd, scatter_window d hiw, hf]; simp
  have hall : ∀ a : Fin 1, 0 ≤ d.start (ix1 e) idx a + (d.window (ix1 e) a : ℤ)
      ∧ d.start (ix1 e) idx a + (d.window (ix1 e) a : ℤ) < ((⟨1, ![N]⟩ : Shape).size a : ℤ) := by
    intro a
    obtain rfl : a = 0 := Subsingleton.elim _ _
    rw [hs]
    have := (f e).isLt
    exact ⟨by positivity, by exact_mod_cast this⟩
  unfold ScatterDims.resultIdx?
  rw [dif_pos hall]
  constructor
  · intro h
    have h0 := congrFun (Option.some.inj h) 0
    have h1 := congrArg Fin.val h0
    simp only [hs, Int.toNat_natCast] at h1
    exact Fin.ext h1
  · intro h
    congr 1
    funext a
    obtain rfl : a = 0 := Subsingleton.elim _ _
    apply Fin.ext
    simp only [hs, Int.toNat_natCast]
    rw [h]
    rfl

/-- THE SCATTER-ADD READ. A float scatter-add into a rank-1 operand through an index column whose row `e` is the node
    number `f e`: node `i` gets its operand entry plus the updates of the rows `e` with `f e = i`. -/
theorem scatterAdd_read (hiw : d.insertedWindowDims = [0]) (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal)
    (f : Fin E → Fin N) (hf : ∀ e, (idx (ix2 e (0 : Fin 1))).toInt = ((f e).val : ℤ)) (i : Fin N) :
    Ideal.hostScatterAdd d x idx upd (ix1 i) = x (ix1 i) + ∑ e ∈ Finset.univ.filter (fun e => f e = i), upd (ix1 e) := by
  change x (ix1 i) + Finset.sum _ (fun j => upd j) = x (ix1 i) + _
  congr 1
  refine Finset.sum_bij' (fun j _ => idxEquiv1 j) (fun e _ => idxEquiv1.symm e) ?_ ?_ ?_ ?_ ?_
  · intro j hj
    obtain ⟨e, rfl⟩ : ∃ e, j = idxEquiv1.symm e := ⟨idxEquiv1 j, (idxEquiv1.symm_apply_apply j).symm⟩
    rw [Equiv.apply_symm_apply]
    rw [Finset.mem_filter] at hj ⊢
    exact ⟨Finset.mem_univ _, (scatter_lands d hiw hsd hivd idx f hf e i).mp hj.2⟩
  · intro e he
    rw [Finset.mem_filter] at he ⊢
    exact ⟨Finset.mem_univ _, (scatter_lands d hiw hsd hivd idx f hf e i).mpr he.2⟩
  · intro j _; exact idxEquiv1.symm_apply_apply j
  · intro e _; exact idxEquiv1.apply_symm_apply e
  · intro j _
    obtain ⟨e, rfl⟩ : ∃ e, j = idxEquiv1.symm e := ⟨idxEquiv1 j, (idxEquiv1.symm_apply_apply j).symm⟩
    rw [Equiv.apply_symm_apply]; rfl

/-- The same read, of the host scatter-add at the exact instance. -/
theorem host_scatterAdd_read {φ : FTy} (hiw : d.insertedWindowDims = [0]) (hsd : d.scatterDimsToOperandDims = [0]) (hivd : d.indexVectorDim = 1)
    (x : FVec Ideal ⟨1, ![N]⟩ φ) (idx : IVec ⟨2, ![E, 1]⟩ w) (upd : FVec Ideal ⟨1, ![E]⟩ φ)
    (f : Fin E → Fin N) (hf : ∀ e, (idx (ix2 e (0 : Fin 1))).toInt = ((f e).val : ℤ)) (i : Fin N) :
    Host.scatterAdd (F := Ideal) d x idx upd (ix1 i)
      = (x (ix1 i) : EReal) + ∑ e ∈ Finset.univ.filter (fun e => f e = i), (upd (ix1 e) : EReal) :=
  scatterAdd_read d hiw hsd hivd x idx upd f hf i

end Scatter

/-! ## Elementwise reads -/

section Elementwise
variable {s : Shape} {φ : FTy} {w : Nat}

theorem host_divf_apply (x y : FVec Ideal s φ) (i : s.Idx) : Host.divf (F := Ideal) x y i = Ideal.div (x i) (y i) := rfl
theorem cmpi_apply (p : CmpIPredicate) (x y : IVec s w) (i : s.Idx) : cmpi p x y i = IntOp.cmpi p (x i) (y i) := rfl
theorem addi_apply (x y : IVec s w) (i : s.Idx) : addi x y i = IntOp.addi (x i) (y i) := rfl
theorem splatI_apply (h : S_.BroadcastsInDim s ![]) (b : BitVec w) (i : s.Idx) :
    broadcastInDim s ![] h (constantI S_ w b) i = b := rfl
theorem splat_apply (h : S_.BroadcastsInDim s ![]) (b : BitVec φ.bits) (i : s.Idx) :
    broadcastInDim s ![] h (constant (F := Ideal) S_ φ b) i = Ideal.ofBits φ b := rfl

/-- The greater of two reals, taken in the extended reals, is the real maximum. -/
theorem coe_max (x y : ℝ) : max (x : EReal) (y : EReal) = ((max x y : ℝ) : EReal) :=
  (EReal.coe_strictMono.monotone.map_max).symm

/-- A word that reads as a natural number is not below zero. -/
theorem cmpi_slt_zero_of_nat (x : BitVec 32) (k : Nat) (hx : x.toInt = (k : ℤ)) : IntOp.cmpi .slt x 0#32 = 0#1 := by
  have hs : x.slt 0#32 = false := by
    simp only [BitVec.slt, hx]
    simp
  show BitVec.ofBool (x.slt 0#32) = 0#1
  rw [hs]; rfl

end Elementwise

/-! ## The node weights as the host lines compute them -/

/-- Row 0 of an edge array: the sources. -/
def srcOf (a : IVec S2x1600000 32) : IVec S1600000 32 :=
  shapeCast S1600000 (extractStridedSlice S1x1600000 ![0, 0] a Facts₀.slices_S2x1600000_S1x1600000_0_0) Facts₀.shapeCasts_S1x1600000_S1600000
/-- Row 1 of an edge array: the destinations. -/
def dstOf (a : IVec S2x1600000 32) : IVec S1600000 32 :=
  shapeCast S1600000 (extractStridedSlice S1x1600000 ![1, 0] a Facts₀.slices_S2x1600000_S1x1600000_1_0) Facts₀.shapeCasts_S1x1600000_S1600000
/-- An edge vector as an index column. -/
def colOf (v : IVec S1600000 32) : IVec S1600000x1 32 := broadcastInDim S1600000x1 ![0] Facts₀.bcast_S1600000_S1600000x1_0 v
/-- Zero at every node. -/
def zerosN : FVec Ideal S100000 .f32 := broadcastInDim S100000 ![] Facts₀.bcast_S_S100000 (constant (F := Ideal) S_ .f32 0x00000000#32)
/-- One at every node. -/
def onesN : FVec Ideal S100000 .f32 := broadcastInDim S100000 ![] Facts₀.bcast_S_S100000 (constant (F := Ideal) S_ .f32 0x3F800000#32)
/-- One at every edge. -/
def onesE : FVec Ideal S1600000 .f32 := broadcastInDim S1600000 ![] Facts₀.bcast_S_S1600000 (constant (F := Ideal) S_ .f32 0x3F800000#32)
/-- The in-degrees: ones added up along the destinations. -/
def cntOf (a : IVec S2x1600000 32) : FVec Ideal S100000 .f32 :=
  Host.scatterAdd (F := Ideal) scatter_S100000_S1600000x1_S1600000_n_0_0_1 zerosN (colOf (dstOf a)) onesE
/-- One over the in-degree, over one where the in-degree is below one. -/
def invOf (a : IVec S2x1600000 32) : FVec Ideal S100000 .f32 :=
  Host.divf (F := Ideal) onesN (maximumf (F := Ideal) (cntOf a) onesN)
/-- An index vector with every negative index moved up by the node count. -/
def normOf (d : IVec S1600000 32) : IVec S1600000 32 :=
  select (cmpi .slt d (broadcastInDim S1600000 ![] Facts₀.bcast_S_S1600000 (constantI S_ 32 0#32)))
    (addi d (broadcastInDim S1600000 ![] Facts₀.bcast_S_S1600000 (constantI S_ 32 100000#32))) d
/-- The destinations, so moved. -/
def dstnOf (a : IVec S2x1600000 32) : IVec S1600000 32 := normOf (dstOf a)
/-- The reciprocal in-degree of every edge's destination. -/
def gOf (a : IVec S2x1600000 32) : FVec Ideal S1600000 .f32 :=
  Host.gather gather_S100000_S1600000x1_S1600000_n_0_n_n_0_1_1 (invOf a) (colOf (dstnOf a))
/-- The node weights: those reciprocals added up along the sources. -/
def qTerm (a : IVec S2x1600000 32) : FVec Ideal S100000 .f32 :=
  Host.scatterAdd (F := Ideal) scatter_S100000_S1600000x1_S1600000_n_0_0_1 zerosN (colOf (srcOf a)) (gOf a)

section Weights
variable (a : IVec S2x1600000 32) (g : Edges) (hg : IsEdges a g)

theorem srcOf_apply (e : Fin EE) : srcOf a (ix1 e) = a (ix2 (0 : Fin 2) e) :=
  row_read 0 0 rfl a Facts₀.slices_S2x1600000_S1x1600000_0_0 Facts₀.shapeCasts_S1x1600000_S1600000 e

theorem dstOf_apply (e : Fin EE) : dstOf a (ix1 e) = a (ix2 (1 : Fin 2) e) :=
  row_read 1 1 rfl a Facts₀.slices_S2x1600000_S1x1600000_1_0 Facts₀.shapeCasts_S1x1600000_S1600000 e

theorem zerosN_apply (j : S100000.Idx) : zerosN j = (0 : EReal) := by
  rw [zerosN, splat_apply]; exact Cert.Consts.ofBits_zero
theorem onesN_apply (j : S100000.Idx) : onesN j = ((1 : ℝ) : EReal) := by
  rw [onesN, splat_apply]; exact Cert.Consts.ofBits_one
theorem onesE_apply (j : S1600000.Idx) : onesE j = ((1 : ℝ) : EReal) := by
  rw [onesE, splat_apply]; exact Cert.Consts.ofBits_one

include hg in
theorem col_src (e : Fin EE) : (colOf (srcOf a) (ix2 e (0 : Fin 1))).toInt = ((g.src e).val : ℤ) := by
  rw [colOf, col_read, srcOf_apply]; exact (hg e).1

include hg in
theorem col_dst (e : Fin EE) : (colOf (dstOf a) (ix2 e (0 : Fin 1))).toInt = ((g.dst e).val : ℤ) := by
  rw [colOf, col_read, dstOf_apply]; exact (hg e).2

include hg in
/-- The in-degree array holds the specification's in-degrees. -/
theorem cntOf_apply (i : Fin NN) : cntOf a (ix1 i) = ((g.cnt i : ℝ) : EReal) := by
  rw [cntOf, host_scatterAdd_read _ rfl rfl rfl zerosN _ onesE g.dst (col_dst a g hg) i]
  simp only [zerosN_apply, onesE_apply, zero_add]
  rw [coe_sum]; rfl

include hg in
/-- Its guarded reciprocal is the specification's. -/
theorem invOf_apply (i : Fin NN) : invOf a (ix1 i) = ((g.inv i : ℝ) : EReal) := by
  have hpos : max (g.cnt i) 1 ≠ 0 := ne_of_gt (lt_of_lt_of_le one_pos (le_max_right _ _))
  rw [invOf, host_divf_apply, maximumf_apply, cntOf_apply a g hg, onesN_apply, coe_max, Ideal.div_coe hpos,
    ← EReal.coe_mul, one_mul]
  rfl

include hg in
/-- A destination is a node number, so none is moved. -/
theorem dstnOf_apply (e : Fin EE) : dstnOf a (ix1 e) = dstOf a (ix1 e) := by
  have h0 : (dstOf a (ix1 e)).toInt = ((g.dst e).val : ℤ) := by rw [dstOf_apply]; exact (hg e).2
  rw [dstnOf, normOf, select_apply, cmpi_apply, splatI_apply, cmpi_slt_zero_of_nat _ _ h0, select_zero]

include hg in
theorem col_dstn (e : Fin EE) : (colOf (dstnOf a) (ix2 e (0 : Fin 1))).toInt = ((g.dst e).val : ℤ) := by
  rw [colOf, col_read, dstnOf_apply a g hg, dstOf_apply]; exact (hg e).2

include hg in
/-- Every edge reads the reciprocal in-degree of its destination. -/
theorem gOf_apply (e : Fin EE) : gOf a (ix1 e) = ((g.inv (g.dst e) : ℝ) : EReal) := by
  rw [gOf, take_read _ rfl rfl rfl rfl (invOf a) _ g.dst (col_dstn a g hg) e, invOf_apply a g hg]

include hg in
/-- The weight array holds the specification's node weights. -/
theorem qTerm_apply (n : Fin NN) : qTerm a (ix1 n) = ((g.q n : ℝ) : EReal) := by
  rw [qTerm, host_scatterAdd_read _ rfl rfl rfl zerosN _ (gOf a) g.src (col_src a g hg) n]
  simp only [zerosN_apply, gOf_apply a g hg, zero_add]
  rw [coe_sum]; rfl

end Weights

/-! ## The arrays the region is entered with

Each buffer the host lines write is read off the run of the whole list as ONE operation applied to the run's
values of its operand buffers; the chain of these equations is then folded into the weight term above. -/

variable (m : (ℓ : Loc nD τ sig) → Buf (Elt Ideal) ℓ)

local macro "stage" : tactic =>
  `(tactic| (dsimp only [V, V0, srcOf, dstOf, colOf, zerosN, onesN, onesE, normOf]
             simp only [hostOps0, List.flatten_cons, List.flatten_nil, List.append_nil]
             after_results_simp <;> rfl))

section Chain1
variable (c : Dev nD)

theorem V_v1 : (V m c main_v1 : S1600000.Idx → BitVec 32) = srcOf (V m c main_arg1) := by stage
theorem V_v3 : (V m c main_v3 : S1600000.Idx → BitVec 32) = dstOf (V m c main_arg1) := by stage
theorem V_v7 : (V m c main_v7 : S100000.Idx → EReal)
    = Host.scatterAdd (F := Ideal) (φ := .f32) scatter_S100000_S1600000x1_S1600000_n_0_0_1 zerosN (colOf (V m c main_v3)) onesE := by stage
theorem V_v11 : (V m c main_v11 : S100000.Idx → EReal)
    = Host.divf (F := Ideal) (φ := .f32) onesN (maximumf (F := Ideal) (φ := .f32) (V m c main_v7) onesN) := by stage
theorem V_v16 : (V m c main_v16 : S1600000.Idx → BitVec 32) = normOf (V m c main_v3) := by stage
theorem V_v18 : (V m c main_v18 : S1600000.Idx → EReal)
    = Host.gather gather_S100000_S1600000x1_S1600000_n_0_n_n_0_1_1 (V m c main_v11 : S100000.Idx → EReal) (colOf (V m c main_v16)) := by stage
theorem V_v21 : (V m c main_v21 : S100000.Idx → EReal)
    = Host.scatterAdd (F := Ideal) (φ := .f32) scatter_S100000_S1600000x1_S1600000_n_0_0_1 zerosN (colOf (V m c main_v1)) (V m c main_v18) := by stage

/-- The first weight vector is the weight term of the first edge array. -/
theorem V_v21_q : (V m c main_v21 : S100000.Idx → EReal) = qTerm (V m c main_arg1) := by
  rw [qTerm, gOf, invOf, cntOf, dstnOf, V_v21, V_v18, V_v16, V_v11, V_v7, V_v3, V_v1]

end Chain1

section Chain2
variable (c : Dev nD)

theorem V_v23 : (V m c main_v23 : S1600000.Idx → BitVec 32) = srcOf (V m c main_arg2) := by stage
theorem V_v25 : (V m c main_v25 : S1600000.Idx → BitVec 32) = dstOf (V m c main_arg2) := by stage
theorem V_v29 : (V m c main_v29 : S100000.Idx → EReal)
    = Host.scatterAdd (F := Ideal) (φ := .f32) scatter_S100000_S1600000x1_S1600000_n_0_0_1 zerosN (colOf (V m c main_v25)) onesE := by stage
theorem V_v33 : (V m c main_v33 : S100000.Idx → EReal)
    = Host.divf (F := Ideal) (φ := .f32) onesN (maximumf (F := Ideal) (φ := .f32) (V m c main_v29) onesN) := by stage
theorem V_v38 : (V m c main_v38 : S1600000.Idx → BitVec 32) = normOf (V m c main_v25) := by stage
theorem V_v40 : (V m c main_v40 : S1600000.Idx → EReal)
    = Host.gather gather_S100000_S1600000x1_S1600000_n_0_n_n_0_1_1 (V m c main_v33 : S100000.Idx → EReal) (colOf (V m c main_v38)) := by stage
theorem V_v43 : (V m c main_v43 : S100000.Idx → EReal)
    = Host.scatterAdd (F := Ideal) (φ := .f32) scatter_S100000_S1600000x1_S1600000_n_0_0_1 zerosN (colOf (V m c main_v23)) (V m c main_v40) := by stage

/-- The second weight vector is the weight term of the second edge array. -/
theorem V_v43_q : (V m c main_v43 : S100000.Idx → EReal) = qTerm (V m c main_arg2) := by
  rw [qTerm, gOf, invOf, cntOf, dstnOf, V_v43, V_v40, V_v38, V_v33, V_v29, V_v25, V_v23]

end Chain2

/-- The weight array is the two weight vectors, each as a column, side by side. -/
theorem Q_eq (c : Dev nD) :
    (V m c main_v46 : S100000x2.Idx → EReal)
      = concatenate S100000x2 1
          [⟨S100000x1, broadcastInDim S100000x1 ![0] Facts₀.bcast_S100000_S100000x1_0 (V m c main_v21 : S100000.Idx → EReal)⟩,
           ⟨S100000x1, broadcastInDim S100000x1 ![0] Facts₀.bcast_S100000_S100000x1_0 (V m c main_v43 : S100000.Idx → EReal)⟩]
          Facts₀.concatenates_S100000x1_S100000x1_S100000x2_d1 := by stage

/-- The third matrix is the elementwise sum of the two self matrices. -/
theorem W3_eq (c : Dev nD) :
    (V m c main_v47 : S128x128.Idx → EReal)
      = addf (F := Ideal) (s := S128x128) (φ := .f32) (V m c main_arg5) (V m c main_arg8) := by stage

/-- The bias row is the elementwise sum of the two bias vectors, as a one-row array. -/
theorem B_eq (c : Dev nD) :
    (V m c main_v49 : S1x128.Idx → EReal)
      = shapeCast S1x128 (addf (F := Ideal) (s := S128) (φ := .f32) (V m c main_arg4) (V m c main_arg7))
          Facts₀.shapeCasts_S128_S1x128 := by stage

theorem V_qs0 (c : Dev nD) (gp : Edges) (hp : IsEdges (m ((c.tc : Thread nD τ).loc main_arg1)) gp) (n : Fin 100000) :
    Q m c (ix2 n (0 : Fin 2)) = ((gp.q n : ℝ) : EReal) := by
  have hA : IsEdges (V m c main_arg1) gp := by rw [V_main_arg1]; exact hp
  have e := congrFun (Q_eq m c) (ix2 n (0 : Fin 2))
  refine e.trans ?_
  rw [concatenate_pair_apply_left (t := S100000x2) (s₁ := S100000x1) (s₂ := S100000x1) (1 : Fin 2) _ _ Facts₀.concatenates_S100000x1_S100000x1_S100000x2_d1 (ix2 n (0 : Fin 2)) rfl
    (ix2 n (0 : Fin 1)) (fun b => by match b with | ⟨0, _⟩ => rfl | ⟨1, _⟩ => rfl)]
  rw [col_read, V_v21_q]
  exact qTerm_apply _ gp hA n

theorem V_qs1 (c : Dev nD) (gn : Edges) (hn : IsEdges (m ((c.tc : Thread nD τ).loc main_arg2)) gn) (n : Fin 100000) :
    Q m c (ix2 n (1 : Fin 2)) = ((gn.q n : ℝ) : EReal) := by
  have hA : IsEdges (V m c main_arg2) gn := by rw [V_main_arg2]; exact hn
  have e := congrFun (Q_eq m c) (ix2 n (1 : Fin 2))
  refine e.trans ?_
  rw [concatenate_pair_apply_right (t := S100000x2) (s₁ := S100000x1) (s₂ := S100000x1) (1 : Fin 2) _ _ Facts₀.concatenates_S100000x1_S100000x1_S100000x2_d1 (ix2 n (1 : Fin 2)) rfl rfl
    (ix2 n (0 : Fin 1)) (fun b hb => by match b with | ⟨0, _⟩ => rfl | ⟨1, _⟩ => exact absurd rfl hb) rfl]
  rw [col_read, V_v43_q]
  exact qTerm_apply _ gn hA n

theorem V_wr (c : Dev nD) (WrP WrN : Fin 128 → Fin 128 → ℝ) (h5 : IsReal2 (m ((c.tc : Thread nD τ).loc main_arg5)) WrP) (h8 : IsReal2 (m ((c.tc : Thread nD τ).loc main_arg8)) WrN) :
    IsReal2 (W3 m c) (fun f h => WrP f h + WrN f h) := by
  intro i j
  have e := congrFun (W3_eq m c) (ix2 i j)
  refine e.trans ?_
  rw [addf_apply, V_main_arg5, V_main_arg8, h5 i j, h8 i j, ← EReal.coe_add]

theorem V_bias (c : Dev nD) (blP blN : Fin 128 → ℝ) (h4 : IsReal1 (m ((c.tc : Thread nD τ).loc main_arg4)) blP) (h7 : IsReal1 (m ((c.tc : Thread nD τ).loc main_arg7)) blN) (h : Fin 128) :
    B m c (ix2 (0 : Fin 1) h) = ((blP h + blN h : ℝ) : EReal) := by
  have e := congrFun (B_eq m c) (ix2 (0 : Fin 1) h)
  refine e.trans ?_
  have hj : (fun b : Fin 1 => (ix2 (0 : Fin 1) h : S1x128.Idx) b.succ) = ix1 h := by
    funext b
    obtain rfl : b = 0 := Subsingleton.elim _ _
    rfl
  rw [shapeCast_addUnit_apply ![128], hj, addf_apply, V_main_arg4, V_main_arg7, h4 h, h7 h, ← EReal.coe_add]

end Cert.KerPrefix

end
-- ==== Proof.KerBody.lean ====
/-
  What each control case of the kernel body leaves in the three running rows and in the output block, as the
  body's arithmetic applied to the blocks it loaded.
-/
import proofs.«429977_j70935679860741_3_alg».proof.Proof.Gen.KernelIdeal.Frame
import Idealize.ShloMosaic.Lib.ValueIdx
import Idealize.ShloMosaic.Lib.Pipeline.Value

set_option maxRecDepth 16384

noncomputable section

open scoped BigOperators

namespace Cert.KerBody

open Idealize.ShloMosaic Idealize.ShloMosaic.TcCoe Idealize.ShloMosaic.ValueIdx Idealize.SL.Sem
open Cert.KernelIdeal Cert.KernelIdeal.Gen

variable {F : FTy → Type} [FloatOps F] [Named F]

/-- The offsets of a whole rank-2 block are all zero. -/
theorem hz2 : (![0, 0] : Fin 2 → Nat) = fun _ => 0 := funext fun a => by fin_cases a <;> rfl

/-- The offsets of a whole rank-3 block are all zero. -/
theorem hz3 : (![0, 0, 0] : Fin 3 → Nat) = fun _ => 0 := funext fun a => by fin_cases a <;> rfl

theorem sout_A_0 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S10000x128 .f32) (x1 : Vec F S10000x2 .f32) (x2 : Vec F S128x128 .f32) (x3 : Vec F S128x128 .f32) (x4 : Vec F S128x128 .f32) :
    sout0_A_0 c i arg2 harg2 arg3 harg3 arg4 harg4 arg5 harg5 arg6 harg6 arg7 harg7 arg8 harg8 arg9 harg9 arg10 harg10 hc0 hc1 x0 x1 x2 x3 x4 = k0_pay6 x0 (k0_pay2 (F := F)) := by
  -- the row is reset to zeros and then updated: the later store covers the whole row, and the value it adds to is
  -- the zero row read back
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_A_1 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S10000x128 .f32) (x1 : Vec F S10000x2 .f32) (x2 : Vec F S128x128 .f32) (x3 : Vec F S128x128 .f32) (x4 : Vec F S128x128 .f32) :
    sout0_A_1 c i arg2 harg2 arg3 harg3 arg4 harg4 arg5 harg5 arg6 harg6 arg7 harg7 arg8 harg8 arg9 harg9 arg10 harg10 hc0 hc1 x0 x1 x2 x3 x4 = k0_pay7 x0 x1 (k0_pay3 (F := F)) := by
  -- the row is reset to zeros and then updated: the later store covers the whole row, and the value it adds to is
  -- the zero row read back
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_A_2 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S10000x128 .f32) (x1 : Vec F S10000x2 .f32) (x2 : Vec F S128x128 .f32) (x3 : Vec F S128x128 .f32) (x4 : Vec F S128x128 .f32) :
    sout0_A_2 c i arg2 harg2 arg3 harg3 arg4 harg4 arg5 harg5 arg6 harg6 arg7 harg7 arg8 harg8 arg9 harg9 arg10 harg10 hc0 hc1 x0 x1 x2 x3 x4 = k0_pay8 x0 x1 (k0_pay4 (F := F)) := by
  -- the row is reset to zeros and then updated: the later store covers the whole row, and the value it adds to is
  -- the zero row read back
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_B_0 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S10000x128 .f32) (x1 : Vec F S10000x2 .f32) (x2 : Vec F S128x128 .f32) (x3 : Vec F S128x128 .f32) (x4 : Vec F S128x128 .f32) (xs0 : Vec F S1x128 .f32) (xs1 : Vec F S1x128 .f32) (xs2 : Vec F S1x128 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay6 x0 xs0 := by
  -- one store covers the whole row; every load reads a whole block
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_B_1 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S10000x128 .f32) (x1 : Vec F S10000x2 .f32) (x2 : Vec F S128x128 .f32) (x3 : Vec F S128x128 .f32) (x4 : Vec F S128x128 .f32) (xs0 : Vec F S1x128 .f32) (xs1 : Vec F S1x128 .f32) (xs2 : Vec F S1x128 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay7 x0 x1 xs1 := by
  -- one store covers the whole row; every load reads a whole block
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_B_2 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S10000x128 .f32) (x1 : Vec F S10000x2 .f32) (x2 : Vec F S128x128 .f32) (x3 : Vec F S128x128 .f32) (x4 : Vec F S128x128 .f32) (xs0 : Vec F S1x128 .f32) (xs1 : Vec F S1x128 .f32) (xs2 : Vec F S1x128 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = k0_pay8 x0 x1 xs2 := by
  -- one store covers the whole row; every load reads a whole block
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_C_0 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S10000x128 .f32) (x1 : Vec F S10000x2 .f32) (x2 : Vec F S128x128 .f32) (x3 : Vec F S128x128 .f32) (x4 : Vec F S128x128 .f32) (xs0 : Vec F S1x128 .f32) (xs1 : Vec F S1x128 .f32) (xs2 : Vec F S1x128 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay6 x0 xs0 := by
  -- one store covers the whole row; every load reads a whole block
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_C_1 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S10000x128 .f32) (x1 : Vec F S10000x2 .f32) (x2 : Vec F S128x128 .f32) (x3 : Vec F S128x128 .f32) (x4 : Vec F S128x128 .f32) (xs0 : Vec F S1x128 .f32) (xs1 : Vec F S1x128 .f32) (xs2 : Vec F S1x128 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay7 x0 x1 xs1 := by
  -- one store covers the whole row; every load reads a whole block
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem sout_C_2 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S10000x128 .f32) (x1 : Vec F S10000x2 .f32) (x2 : Vec F S128x128 .f32) (x3 : Vec F S128x128 .f32) (x4 : Vec F S128x128 .f32) (xs0 : Vec F S1x128 .f32) (xs1 : Vec F S1x128 .f32) (xs2 : Vec F S1x128 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = k0_pay8 x0 x1 xs2 := by
  -- one store covers the whole row; every load reads a whole block
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

theorem out_C_5 (c : Dev nD) (i : grid0.Coords) (arg2 : Memref sig .tc .vmem S10000x128 .f32) (harg2 : arg2.IsWhole) (arg3 : Memref sig .tc .vmem S10000x2 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S10000x128 .f32) (x1 : Vec F S10000x2 .f32) (x2 : Vec F S128x128 .f32) (x3 : Vec F S128x128 .f32) (x4 : Vec F S128x128 .f32) (xs0 : Vec F S1x128 .f32) (xs1 : Vec F S1x128 .f32) (xs2 : Vec F S1x128 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay1 (k0_pay7 x0 x1 xs1) (k0_pay8 x0 x1 xs2) (k0_pay6 x0 xs0) x2 x3 x4 := by
  -- one store covers the whole output block; the three rows it reads are the rows just stored, read back whole
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1x1x128) hz3]
  simp only [View.readAt_eq_ld, harg2.read_unread, harg3.read_unread, harg4.read_unread, harg5.read_unread, harg6.read_unread, harg7.read_unread, harg8.read_unread, harg9.read_unread, harg10.read_unread, View.ld_unit_zero (S := S10000x128) hz2, View.ld_unit_zero (S := S10000x2) hz2, View.ld_unit_zero (S := S128x128) hz2, View.ld_unit_zero (S := S1x128) hz2, View.ld_unit_zero (S := S1x1x128) hz3, View.readCov_unit_zero (S := S1x128) _ hz2]

end Cert.KerBody

end
-- ==== Proof.KerPay.lean ====
/-
  The kernel body's arithmetic read at one lane, at the exact instance: a running row plus a block's column sum
  (plain, or weighted by a column of the weight block), and the closing row of three scaled vector-matrix products.
-/
import proofs.«429977_j70935679860741_3_alg».proof.Proof.Gen.KernelIdeal.Skeleton
import proofs.«429977_j70935679860741_3_alg».proof.Proof.KerForm
import Idealize.ShloMosaic.PureOps.Ideal.Laws
import Idealize.ShloMosaic.PureOps.IdealRules
import Idealize.ShloMosaic.Lib.Pipeline.Value
import Idealize.ShloMosaic.Lib.ValueIdx

set_option maxRecDepth 16384

noncomputable section

open scoped BigOperators

namespace Cert.KerPay

open Idealize.ShloMosaic Idealize.ShloMosaic.TcCoe Idealize.ShloMosaic.ValueIdx Idealize.SL.Sem
open Cert.KernelIdeal Cert.KernelIdeal.Gen
open Cert.KerForm

/-! ## The zero rows -/

/-- The row that repeats the pattern of `+0.0` in every lane is the zero row: a cast to the same shape changes nothing,
    and the pattern denotes the extended real `0`. -/
theorem zero_row (y : S1x128.Idx) :
    shapeCast S1x128 (broadcast S1x128 (Scalar.ofBits (F := Ideal) .f32 0x00000000#32)) shapeCasts_S1x128_S1x128 y = 0 := by
  rw [shapeCast_self]
  exact Ideal.ofBits_zero_f32

theorem pay2_apply (y : S1x128.Idx) : k0_pay2 (F := Ideal) y = 0 := zero_row y

theorem pay3_apply (y : S1x128.Idx) : k0_pay3 (F := Ideal) y = 0 := zero_row y

theorem pay4_apply (y : S1x128.Idx) : k0_pay4 (F := Ideal) y = 0 := zero_row y

/-! ## A block's column sums -/

/-- The sum of a `10000 × 128` block over its rows, viewed as a `1 × 128` row, is at lane `f` the sum over the rows `r`
    of the block at `(r, f)`: lane `f` of the row is position `f` of the `128`-vector of sums (both have row-major
    position `f`), and the source index over position `f` with row coordinate `r` is `(r, f)`. -/
theorem colsum_apply (x : Vec Ideal S10000x128 .f32) (f : Fin 128) :
    shapeCast S1x128 (multiReduction (F := Ideal) .add [0] S128 x 0x00000000#32 reduces_S10000x128_S128 (.inl rfl) rfl)
        shapeCasts_S128_S1x128 (ix2 (0 : Fin 1) f)
      = ∑ r : Fin 10000, x (ix2 r f) := by
  refine (shapeCast_apply _ shapeCasts_S128_S1x128 (ix2 (0 : Fin 1) f) (ix1 f) ?_).trans ?_
  · rw [Shape.rowMajor_val_one, Shape.rowMajor_val_two]
    show f.val = 0 * 128 + f.val
    omega
  · refine (Ideal.multiReduction_add_single x _ reduces_S10000x128_S128 _ _ (ix1 f)).trans ?_
    refine Finset.sum_congr rfl fun r _ => congrArg x ?_
    funext c
    match c with
    | ⟨0, _⟩ => rfl
    | ⟨1, _⟩ => rfl

theorem pay6_apply (x0 : Vec Ideal S10000x128 .f32) (acc : Vec Ideal S1x128 .f32) (f : Fin 128) :
    k0_pay6 (F := Ideal) x0 acc (ix2 (0 : Fin 1) f) = acc (ix2 (0 : Fin 1) f) + ∑ r : Fin 10000, x0 (ix2 r f) := by
  unfold k0_pay6
  rw [shapeCast_self]
  exact congrArg (acc (ix2 (0 : Fin 1) f) + ·) (colsum_apply x0 f)

/-! ## The weighted column sums -/

/-- Column `0` of the two-column weight block, repeated along the `128` lanes, is at `(r, f)` the weight `(r, 0)`:
    the repetition reads the one-column slice at `(r, 0)`, and the slice at offset `(0, 0)` reads the block there. -/
theorem wcol0_apply (x1 : Vec Ideal S10000x2 .f32) (r : Fin 10000) (f : Fin 128) :
    broadcastTo S10000x128 (extractStridedSlice S10000x1 ![0, 0] (k0_pay5 (F := Ideal) x1) slices_S10000x2_o0_0_S10000x1)
        broadcasts_S10000x1_S10000x128 (ix2 r f) = x1 (ix2 r (0 : Fin 2)) := by
  refine (broadcastTo_apply _ broadcasts_S10000x1_S10000x128 (ix2 r f) (ix2 r (0 : Fin 1)) ?_).trans ?_
  · intro a
    match a with
    | ⟨0, _⟩ => show r.val = if (10000 : Nat) = 1 then 0 else r.val; rw [if_neg (by decide)]
    | ⟨1, _⟩ => show 0 = if (1 : Nat) = 1 then 0 else f.val; rw [if_pos rfl]
  · refine (extractStridedSlice_apply ![0, 0] _ slices_S10000x2_o0_0_S10000x1 (ix2 r (0 : Fin 1)) (ix2 r (0 : Fin 2)) ?_).trans ?_
    · intro a
      match a with
      | ⟨0, _⟩ => show r.val = 0 + r.val; omega
      | ⟨1, _⟩ => show 0 = 0 + 0; rfl
    · unfold k0_pay5
      rw [shapeCast_self]

/-- Column `1` likewise: the slice at offset `(0, 1)` reads the block at `(r, 1)`. -/
theorem wcol1_apply (x1 : Vec Ideal S10000x2 .f32) (r : Fin 10000) (f : Fin 128) :
    broadcastTo S10000x128 (extractStridedSlice S10000x1 ![0, 1] (k0_pay5 (F := Ideal) x1) slices_S10000x2_o0_1_S10000x1)
        broadcasts_S10000x1_S10000x128 (ix2 r f) = x1 (ix2 r (1 : Fin 2)) := by
  refine (broadcastTo_apply _ broadcasts_S10000x1_S10000x128 (ix2 r f) (ix2 r (0 : Fin 1)) ?_).trans ?_
  · intro a
    match a with
    | ⟨0, _⟩ => show r.val = if (10000 : Nat) = 1 then 0 else r.val; rw [if_neg (by decide)]
    | ⟨1, _⟩ => show 0 = if (1 : Nat) = 1 then 0 else f.val; rw [if_pos rfl]
  · refine (extractStridedSlice_apply ![0, 1] _ slices_S10000x2_o0_1_S10000x1 (ix2 r (0 : Fin 1)) (ix2 r (1 : Fin 2)) ?_).trans ?_
    · intro a
      match a with
      | ⟨0, _⟩ => show r.val = 0 + r.val; omega
      | ⟨1, _⟩ => show 1 = 1 + 0; rfl
    · unfold k0_pay5
      rw [shapeCast_self]

theorem pay7_apply (x0 : Vec Ideal S10000x128 .f32) (x1 : Vec Ideal S10000x2 .f32) (acc : Vec Ideal S1x128 .f32) (f : Fin 128) :
    k0_pay7 (F := Ideal) x0 x1 acc (ix2 (0 : Fin 1) f) = acc (ix2 (0 : Fin 1) f) + ∑ r : Fin 10000, x0 (ix2 r f) * x1 (ix2 r (0 : Fin 2)) := by
  unfold k0_pay7
  rw [shapeCast_self]
  refine (congrArg (acc (ix2 (0 : Fin 1) f) + ·) (colsum_apply _ f)).trans ?_
  exact congrArg (acc (ix2 (0 : Fin 1) f) + ·) (Finset.sum_congr rfl fun r _ => congrArg (x0 (ix2 r f) * ·) (wcol0_apply x1 r f))

theorem pay8_apply (x0 : Vec Ideal S10000x128 .f32) (x1 : Vec Ideal S10000x2 .f32) (acc : Vec Ideal S1x128 .f32) (f : Fin 128) :
    k0_pay8 (F := Ideal) x0 x1 acc (ix2 (0 : Fin 1) f) = acc (ix2 (0 : Fin 1) f) + ∑ r : Fin 10000, x0 (ix2 r f) * x1 (ix2 r (1 : Fin 2)) := by
  unfold k0_pay8
  rw [shapeCast_self]
  refine (congrArg (acc (ix2 (0 : Fin 1) f) + ·) (colsum_apply _ f)).trans ?_
  exact congrArg (acc (ix2 (0 : Fin 1) f) + ·) (Finset.sum_congr rfl fun r _ => congrArg (x0 (ix2 r f) * ·) (wcol1_apply x1 r f))

/-! ## The closing row: three scaled vector-matrix products -/

/-- The named reciprocal of the node count, read at the extended reals, is `1 / 100000`. -/
theorem inv_named : Named.named (F := Ideal) κ "inv_100000" (φ := .f32) 0x3727C5AC#32 = invN :=
  IdealRules.named_const.ideal_named_scalar _ _ _ _ rfl

/-! The product of a `1 × 128` row with a `128 × 128` matrix contracts the row's axis `1` with the matrix's axis `0`:
    at output `(0, h)` and contraction coordinate `k` the row is read at `(0, k)` and the matrix at `(k, h)`. The four
    coordinates, one lemma each. -/

theorem lhs_dot_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide),
    dif_pos (show (0 : Fin S1x128.rank) ∈ dot_S1x128_S128x128_S1x128_1_0_0_1_n_n.lhsNonContracting by decide)]
  rfl

theorem lhs_dot_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q

theorem rhs_dot_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q

theorem rhs_dot_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide),
    dif_pos (show (1 : Fin S128x128.rank) ∈ dot_S1x128_S128x128_S1x128_1_0_0_1_n_n.rhsNonContracting by decide)]
  rfl

/-- A row times a matrix, accumulated into the zero row, is at lane `h` the sum over `f` of the row at `(0, f)` times the
    matrix at `(f, h)`: the sum over the one-axis contraction index, re-indexed by its coordinate. -/
theorem vecmat_apply (a : FVec Ideal S1x128 .f32) (w : FVec Ideal S128x128 .f32) (h : Fin 128) :
    matmul (F := Ideal) (φ₁ := .f32) (φ₂ := .f32) dot_S1x128_S128x128_S1x128_1_0_0_1_n_n none a w (constant S1x128 .f32 0x00000000#32) (ix2 (0 : Fin 1) h)
      = ∑ f : Fin 128, a (ix2 (0 : Fin 1) f) * w (ix2 f h) := by
  simp only [matmul]
  rw [Ideal.matmul_constant_zero_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 (0 : Fin 1) h) ((contrEquiv1 dot_S1x128_S128x128_S1x128_1_0_0_1_n_n 128 rfl rfl).symm k)
      = ix2 (0 : Fin 1) k := funext fun c => Fin.ext (by
    match c with
    | ⟨0, _⟩ => exact lhs_dot_0 _ _
    | ⟨1, _⟩ => exact (lhs_dot_1 _ _).trans hk)
  have er : dot_S1x128_S128x128_S1x128_1_0_0_1_n_n.rhsIdx (ix2 (0 : Fin 1) h) ((contrEquiv1 dot_S1x128_S128x128_S1x128_1_0_0_1_n_n 128 rfl rfl).symm k)
      = ix2 k h := funext fun c => Fin.ext (by
    match c with
    | ⟨0, _⟩ => exact (rhs_dot_0 _ _).trans hk
    | ⟨1, _⟩ => exact rhs_dot_1 _ _)
  rw [el, er]

/-- The same with the row first scaled, lane by lane, by the named reciprocal of the node count. -/
theorem scaled_vecmat_apply (a : FVec Ideal S1x128 .f32) (w : FVec Ideal S128x128 .f32) (h : Fin 128) :
    matmul (F := Ideal) (φ₁ := .f32) (φ₂ := .f32) dot_S1x128_S128x128_S1x128_1_0_0_1_n_n none
        (mulf a (broadcast S1x128 (Named.named (F := Ideal) κ "inv_100000" (φ := .f32) 0x3727C5AC#32))) w
        (constant S1x128 .f32 0x00000000#32) (ix2 (0 : Fin 1) h)
      = ∑ f : Fin 128, (a (ix2 (0 : Fin 1) f) * invN) * w (ix2 f h) := by
  refine (vecmat_apply _ w h).trans ?_
  refine Finset.sum_congr rfl fun f _ => congrArg (· * w (ix2 f h)) ?_
  exact congrArg (a (ix2 (0 : Fin 1) f) * ·) inv_named

/-- The closing row, stored as a `1 × 1 × 128` block: its entry `(0, 0, h)` is entry `(0, h)` of the `1 × 128` row (both
    have row-major position `h`), which is the three scaled products added; the third matrix passes through a cast to
    its own shape. -/
theorem pay1_apply (a9 a10 a8 : Vec Ideal S1x128 .f32) (w4 w5 w6 : Vec Ideal S128x128 .f32) (h : Fin 128) :
    k0_pay1 (F := Ideal) a9 a10 a8 w4 w5 w6 (ix3 (0 : Fin 1) (0 : Fin 1) h)
      = ((∑ f : Fin 128, (a9 (ix2 (0 : Fin 1) f) * invN) * w4 (ix2 f h))
          + (∑ f : Fin 128, (a10 (ix2 (0 : Fin 1) f) * invN) * w5 (ix2 f h)))
        + (∑ f : Fin 128, (a8 (ix2 (0 : Fin 1) f) * invN) * w6 (ix2 f h)) := by
  unfold k0_pay1
  refine (shapeCast_apply _ shapeCasts_S1x128_S1x1x128 (ix3 (0 : Fin 1) (0 : Fin 1) h) (ix2 (0 : Fin 1) h) ?_).trans ?_
  · rw [Shape.rowMajor_val_two, Shape.rowMajor_val_three]
    show 0 * 128 + h.val = (0 * 1 + 0) * 128 + h.val
    omega
  · rw [shapeCast_self]
    exact congrArg₂ (· + ·) (congrArg₂ (· + ·) (scaled_vecmat_apply a9 w4 h) (scaled_vecmat_apply a10 w5 h)) (scaled_vecmat_apply a8 w6 h)

end Cert.KerPay

end
-- ==== Proof.KerRegion.lean ====
/-
  The output array of the pipelined region after the run: row `cc` holds core `cc`'s output row.

  The region's ten points are numbered `t = 5·cc + j` (core `cc`, step `j`). At point `t` the loaded feature and weight
  blocks are rows `10000·t … 10000·t + 9999` of the two node arrays, and the three matrices are loaded whole. By
  induction on the point, after point `t` each of the three running rows at lane `f` is the sum over the core's blocks
  `5·cc … t` of the block's column sum (plain, or weighted by a column of the weight array): the first point of a core
  starts the rows from zero, every later one adds its block. At a core's last point the output block is the three
  scaled vector-matrix products of these rows, which is the core's output row; that point is the one whose block —
  row `cc` of the output array — is written back, so the array ends holding row `cc` there.
-/
import proofs.«429977_j70935679860741_3_alg».proof.Proof.KerArrays
import proofs.«429977_j70935679860741_3_alg».proof.Proof.KerBody
import proofs.«429977_j70935679860741_3_alg».proof.Proof.KerPay
import proofs.«429977_j70935679860741_3_alg».proof.Proof.KerForm
import proofs.«429977_j70935679860741_3_alg».proof.Proof.Lift
import Idealize.ShloMosaic.Lib.Pipeline.Value

set_option maxRecDepth 16384

noncomputable section

open scoped BigOperators

namespace Cert.KerRegion

open Idealize.ShloMosaic Idealize.ShloMosaic.TcCoe Idealize.ShloMosaic.ValueIdx Idealize.SL.Sem
open Cert.KernelIdeal Cert.KernelIdeal.Gen
open Cert.Spec Cert.Lift Cert.KerForm Cert.KerArrays

variable (m : (ℓ : Loc nD τ sig) → Buf (Elt Ideal) ℓ)

/-- The point's number as a block of the node axis. -/
abbrev blkOf (t : Fin cfg0.N) : Fin 10 := ⟨t.val, lt_of_lt_of_eq t.isLt N_0⟩

abbrev xblk (c : Dev nD) (t : Fin cfg0.N) : Vec Ideal S10000x128 .f32 := iblk m c 0 t
abbrev qblk (c : Dev nD) (t : Fin cfg0.N) : Vec Ideal S10000x2 .f32 := iblk m c 1 t
abbrev w1blk (c : Dev nD) (t : Fin cfg0.N) : Vec Ideal S128x128 .f32 := iblk m c 2 t
abbrev w2blk (c : Dev nD) (t : Fin cfg0.N) : Vec Ideal S128x128 .f32 := iblk m c 3 t
abbrev w3blk (c : Dev nD) (t : Fin cfg0.N) : Vec Ideal S128x128 .f32 := iblk m c 4 t

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = 0 ∧ win0_4.index t (1 : Fin 2) = 0 := by decide +kernel

theorem xblk_apply (c : Dev nD) (t : Fin cfg0.N) (r : Fin 10000) (f : Fin 128) :
    xblk m c t (ix2 r f) = X m c (ix2 (rowOf (blkOf t) r) f) := by
  unfold xblk iblk
  rw [View.read_apply]
  show V m c main_arg0 _ = V m c main_arg0 _
  congr 1
  funext a
  apply Fin.ext
  match a with
  | ⟨0, _⟩ => show win0_0.index t 0 * 10000 + 1 * r.val = t.val * 10000 + r.val; rw [(index0 t).1]; omega
  | ⟨1, _⟩ => show win0_0.index t 1 * 128 + 1 * f.val = f.val; rw [(index0 t).2]; omega

theorem qblk_apply (c : Dev nD) (t : Fin cfg0.N) (r : Fin 10000) (k : Fin 2) :
    qblk m c t (ix2 r k) = Q m c (ix2 (rowOf (blkOf t) r) k) := by
  unfold qblk iblk
  rw [View.read_apply]
  show V m c main_v46 _ = V m c main_v46 _
  congr 1
  funext a
  apply Fin.ext
  match a with
  | ⟨0, _⟩ => show win0_1.index t 0 * 10000 + 1 * r.val = t.val * 10000 + r.val; rw [(index1 t).1]; omega
  | ⟨1, _⟩ => show win0_1.index t 1 * 2 + 1 * k.val = k.val; rw [(index1 t).2]; omega

theorem w1blk_apply (c : Dev nD) (t : Fin cfg0.N) (f h : Fin 128) :
    w1blk m c t (ix2 f h) = W1 m c (ix2 f h) := by
  unfold w1blk iblk
  rw [View.read_apply]
  show V m c main_arg3 _ = V m c main_arg3 _
  congr 1
  funext a
  apply Fin.ext
  match a with
  | ⟨0, _⟩ => show win0_2.index t 0 * 128 + 1 * f.val = f.val; rw [(index2 t).1]; omega
  | ⟨1, _⟩ => show win0_2.index t 1 * 128 + 1 * h.val = h.val; rw [(index2 t).2]; omega

theorem w2blk_apply (c : Dev nD) (t : Fin cfg0.N) (f h : Fin 128) :
    w2blk m c t (ix2 f h) = W2 m c (ix2 f h) := by
  unfold w2blk iblk
  rw [View.read_apply]
  show V m c main_arg6 _ = V m c main_arg6 _
  congr 1
  funext a
  apply Fin.ext
  match a with
  | ⟨0, _⟩ => show win0_3.index t 0 * 128 + 1 * f.val = f.val; rw [(index3 t).1]; omega
  | ⟨1, _⟩ => show win0_3.index t 1 * 128 + 1 * h.val = h.val; rw [(index3 t).2]; omega

theorem w3blk_apply (c : Dev nD) (t : Fin cfg0.N) (f h : Fin 128) :
    w3blk m c t (ix2 f h) = W3 m c (ix2 f h) := by
  unfold w3blk iblk
  rw [View.read_apply]
  show V m c main_v47 _ = V m c main_v47 _
  congr 1
  funext a
  apply Fin.ext
  match a with
  | ⟨0, _⟩ => show win0_4.index t 0 * 128 + 1 * f.val = f.val; rw [(index4 t).1]; omega
  | ⟨1, _⟩ => show win0_4.index t 1 * 128 + 1 * h.val = h.val; rw [(index4 t).2]; omega

/-- The three running rows after a point that resets them (the first block of a core). -/
theorem rows_A (c : Dev nD) (t : Fin cfg0.N) (h0 : t.val % 5 = 0) (h1 : ¬t.val % 5 = 4) :
    (outsAt0 (F := Ideal) m c t.val t.isLt).2.1 = k0_pay6 (xblk m c t) (k0_pay2 (F := Ideal))
    ∧ (outsAt0 (F := Ideal) m c t.val t.isLt).2.2.1 = k0_pay7 (xblk m c t) (qblk m c t) (k0_pay3 (F := Ideal))
    ∧ (outsAt0 (F := Ideal) m c t.val t.isLt).2.2.2 = k0_pay8 (xblk m c t) (qblk m c t) (k0_pay4 (F := Ideal)) := by
  rw [outsAt0_A m c t h0 h1]
  dsimp only
  exact ⟨Cert.KerBody.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (qblk m c t) (w1blk m c t) (w2blk m c t) (w3blk m c t),
    Cert.KerBody.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (qblk m c t) (w1blk m c t) (w2blk m c t) (w3blk m c t),
    Cert.KerBody.sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (qblk m c t) (w1blk m c t) (w2blk m c t) (w3blk m c t)⟩

/-- The three running rows after a point that adds to them: the body's arithmetic on the rows the point before left. -/
theorem rows_step (c : Dev nD) (t : Fin cfg0.N) (h0 : ¬t.val % 5 = 0) :
    (outsAt0 (F := Ideal) m c t.val t.isLt).2.1 = k0_pay6 (xblk m c t) (outsAt0 (F := Ideal) m c (t.val - 1) (Nat.lt_of_le_of_lt (Nat.sub_le _ _) t.isLt)).2.1
    ∧ (outsAt0 (F := Ideal) m c t.val t.isLt).2.2.1 = k0_pay7 (xblk m c t) (qblk m c t) (outsAt0 (F := Ideal) m c (t.val - 1) (Nat.lt_of_le_of_lt (Nat.sub_le _ _) t.isLt)).2.2.1
    ∧ (outsAt0 (F := Ideal) m c t.val t.isLt).2.2.2 = k0_pay8 (xblk m c t) (qblk m c t) (outsAt0 (F := Ideal) m c (t.val - 1) (Nat.lt_of_le_of_lt (Nat.sub_le _ _) t.isLt)).2.2.2 := by
  by_cases h1 : t.val % 5 = 4
  · rw [outsAt0_C m c t h0 h1]
    dsimp only
    exact ⟨Cert.KerBody.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
      Cert.KerBody.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
      Cert.KerBody.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2⟩
  · rw [outsAt0_B m c t h0 h1]
    dsimp only
    exact ⟨Cert.KerBody.sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
      Cert.KerBody.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
      Cert.KerBody.sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2⟩

/-- The output block after a core's last point: the closing arithmetic on the three rows that point leaves. -/
theorem out_C (c : Dev nD) (t : Fin cfg0.N) (h0 : ¬t.val % 5 = 0) (h1 : t.val % 5 = 4) :
    (outsAt0 (F := Ideal) m c t.val t.isLt).1
      = k0_pay1 (outsAt0 (F := Ideal) m c t.val t.isLt).2.2.1 (outsAt0 (F := Ideal) m c t.val t.isLt).2.2.2
          (outsAt0 (F := Ideal) m c t.val t.isLt).2.1 (w1blk m c t) (w2blk m c t) (w3blk m c t) := by
  rw [outsAt0_C m c t h0 h1]
  dsimp only
  rw [Cert.KerBody.out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
    Cert.KerBody.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
    Cert.KerBody.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
    Cert.KerBody.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (qblk m c t) (w1blk m c t) (w2blk m c t) (w3blk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2]

/-! ## The rows as sums over the blocks walked so far -/

/-- The column sum of block `b` of the node axis, for any natural `b` (nothing past the tenth block). -/
def blkSum (X : (⟨2, ![100000, 128]⟩ : Shape).Idx → EReal) (b : ℕ) (f : Fin 128) : EReal :=
  if hb : b < 10 then colSum X ⟨b, hb⟩ f else 0

/-- The same, weighted by column `k` of the weight array. -/
def blkSumQ (X : (⟨2, ![100000, 128]⟩ : Shape).Idx → EReal) (Q : (⟨2, ![100000, 2]⟩ : Shape).Idx → EReal) (k : Fin 2)
    (b : ℕ) (f : Fin 128) : EReal :=
  if hb : b < 10 then colSumQ X Q k ⟨b, hb⟩ f else 0

/-- Summing the loaded feature block's rows is the column sum of the point's block of the array. -/
theorem x_sum (c : Dev nD) (t : Fin cfg0.N) (f : Fin 128) :
    ∑ r : Fin 10000, xblk m c t (ix2 r f) = blkSum (X m c) t.val f := by
  unfold blkSum
  rw [dif_pos (lt_of_lt_of_eq t.isLt N_0)]
  unfold colSum
  exact Finset.sum_congr rfl fun r _ => xblk_apply m c t r f

/-- And with the loaded weight block's column `k`, the weighted column sum. -/
theorem xq_sum (c : Dev nD) (t : Fin cfg0.N) (k : Fin 2) (f : Fin 128) :
    ∑ r : Fin 10000, xblk m c t (ix2 r f) * qblk m c t (ix2 r k) = blkSumQ (X m c) (Q m c) k t.val f := by
  unfold blkSumQ
  rw [dif_pos (lt_of_lt_of_eq t.isLt N_0)]
  unfold colSumQ
  exact Finset.sum_congr rfl fun r _ => by rw [xblk_apply m c t r f, qblk_apply m c t r k]

/-- At a core's first point the rows are that block's sums: the body starts them from zero. -/
theorem rows_reset (c : Dev nD) (t : Fin cfg0.N) (h0 : t.val % 5 = 0) (f : Fin 128) :
    (outsAt0 (F := Ideal) m c t.val t.isLt).2.1 (ix2 (0 : Fin 1) f) = blkSum (X m c) t.val f
    ∧ (outsAt0 (F := Ideal) m c t.val t.isLt).2.2.1 (ix2 (0 : Fin 1) f) = blkSumQ (X m c) (Q m c) 0 t.val f
    ∧ (outsAt0 (F := Ideal) m c t.val t.isLt).2.2.2 (ix2 (0 : Fin 1) f) = blkSumQ (X m c) (Q m c) 1 t.val f := by
  obtain ⟨e0, e1, e2⟩ := rows_A m c t h0 (by omega)
  rw [e0, e1, e2, Cert.KerPay.pay6_apply, Cert.KerPay.pay7_apply, Cert.KerPay.pay8_apply, Cert.KerPay.pay2_apply,
    Cert.KerPay.pay3_apply, Cert.KerPay.pay4_apply, zero_add, zero_add, zero_add, x_sum, xq_sum, xq_sum]
  exact ⟨rfl, rfl, rfl⟩

/-- At every other point each row gains the point's block's sum. -/
theorem rows_next (c : Dev nD) (t : Fin cfg0.N) (h0 : ¬t.val % 5 = 0) (f : Fin 128) :
    (outsAt0 (F := Ideal) m c t.val t.isLt).2.1 (ix2 (0 : Fin 1) f)
        = (outsAt0 (F := Ideal) m c (t.val - 1) (Nat.lt_of_le_of_lt (Nat.sub_le _ _) t.isLt)).2.1 (ix2 (0 : Fin 1) f) + blkSum (X m c) t.val f
    ∧ (outsAt0 (F := Ideal) m c t.val t.isLt).2.2.1 (ix2 (0 : Fin 1) f)
        = (outsAt0 (F := Ideal) m c (t.val - 1) (Nat.lt_of_le_of_lt (Nat.sub_le _ _) t.isLt)).2.2.1 (ix2 (0 : Fin 1) f) + blkSumQ (X m c) (Q m c) 0 t.val f
    ∧ (outsAt0 (F := Ideal) m c t.val t.isLt).2.2.2 (ix2 (0 : Fin 1) f)
        = (outsAt0 (F := Ideal) m c (t.val - 1) (Nat.lt_of_le_of_lt (Nat.sub_le _ _) t.isLt)).2.2.2 (ix2 (0 : Fin 1) f) + blkSumQ (X m c) (Q m c) 1 t.val f := by
  obtain ⟨e0, e1, e2⟩ := rows_step m c t h0
  rw [e0, e1, e2, Cert.KerPay.pay6_apply, Cert.KerPay.pay7_apply, Cert.KerPay.pay8_apply, x_sum, xq_sum, xq_sum]
  exact ⟨rfl, rfl, rfl⟩

/-- The invariant at a point that resets the rows. -/
theorem rows_eq_reset (c : Dev nD) (n : ℕ) (hn : n < cfg0.N) (h0 : n % 5 = 0) (f : Fin 128) :
    (outsAt0 (F := Ideal) m c n hn).2.1 (ix2 (0 : Fin 1) f)
        = ∑ s ∈ Finset.range (n % 5 + 1), blkSum (X m c) (5 * (n / 5) + s) f
    ∧ (outsAt0 (F := Ideal) m c n hn).2.2.1 (ix2 (0 : Fin 1) f)
        = ∑ s ∈ Finset.range (n % 5 + 1), blkSumQ (X m c) (Q m c) 0 (5 * (n / 5) + s) f
    ∧ (outsAt0 (F := Ideal) m c n hn).2.2.2 (ix2 (0 : Fin 1) f)
        = ∑ s ∈ Finset.range (n % 5 + 1), blkSumQ (X m c) (Q m c) 1 (5 * (n / 5) + s) f := by
  have hr : n % 5 + 1 = 1 := by omega
  have hb : 5 * (n / 5) + 0 = n := by omega
  rw [hr, Finset.sum_range_one, Finset.sum_range_one, Finset.sum_range_one, hb]
  exact rows_reset m c ⟨n, hn⟩ h0 f

/-- THE INVARIANT. After point `n` (core `n / 5`, step `n % 5`) each running row at lane `f` is the sum over the core's
    blocks walked so far, `5·(n / 5) … n`, of the block's (weighted) column sum. -/
theorem rows_eq (c : Dev nD) (n : ℕ) : ∀ (hn : n < cfg0.N) (f : Fin 128),
    (outsAt0 (F := Ideal) m c n hn).2.1 (ix2 (0 : Fin 1) f)
        = ∑ s ∈ Finset.range (n % 5 + 1), blkSum (X m c) (5 * (n / 5) + s) f
    ∧ (outsAt0 (F := Ideal) m c n hn).2.2.1 (ix2 (0 : Fin 1) f)
        = ∑ s ∈ Finset.range (n % 5 + 1), blkSumQ (X m c) (Q m c) 0 (5 * (n / 5) + s) f
    ∧ (outsAt0 (F := Ideal) m c n hn).2.2.2 (ix2 (0 : Fin 1) f)
        = ∑ s ∈ Finset.range (n % 5 + 1), blkSumQ (X m c) (Q m c) 1 (5 * (n / 5) + s) f := by
  induction n with
  | zero => exact fun hn f => rows_eq_reset m c 0 hn rfl f
  | succ k ih =>
    intro hn f
    by_cases h0 : (k + 1) % 5 = 0
    · exact rows_eq_reset m c (k + 1) hn h0 f
    · have hk : k < cfg0.N := Nat.lt_of_succ_lt hn
      obtain ⟨i0, i1, i2⟩ := ih hk f
      obtain ⟨s0, s1, s2⟩ := rows_next m c ⟨k + 1, hn⟩ h0 f
      have hr : (k + 1) % 5 + 1 = (k % 5 + 1) + 1 := by omega
      have hq : 5 * ((k + 1) / 5) = 5 * (k / 5) := by omega
      have hb : 5 * (k / 5) + (k % 5 + 1) = k + 1 := by omega
      rw [hr, hq, Finset.sum_range_succ _ (k % 5 + 1), Finset.sum_range_succ _ (k % 5 + 1),
        Finset.sum_range_succ _ (k % 5 + 1), hb, ← i0, ← i1, ← i2]
      exact ⟨s0, s1, s2⟩

/-! ## The output block after a core's last point, and the output array -/

/-- A natural-indexed block sum at a block of core `cc`. -/
theorem blkSum_block (X : (⟨2, ![100000, 128]⟩ : Shape).Idx → EReal) (cc : Fin 2) (j : Fin 5) (f : Fin 128) (b : ℕ)
    (hb : b = cc.val * 5 + j.val) : blkSum X b f = colSum X (blockOf cc j) f := by
  subst hb
  unfold blkSum
  rw [dif_pos (by have := cc.isLt; have := j.isLt; omega)]
  rfl

theorem blkSumQ_block (X : (⟨2, ![100000, 128]⟩ : Shape).Idx → EReal) (Q : (⟨2, ![100000, 2]⟩ : Shape).Idx → EReal)
    (k : Fin 2) (cc : Fin 2) (j : Fin 5) (f : Fin 128) (b : ℕ)
    (hb : b = cc.val * 5 + j.val) : blkSumQ X Q k b f = colSumQ X Q k (blockOf cc j) f := by
  subst hb
  unfold blkSumQ
  rw [dif_pos (by have := cc.isLt; have := j.isLt; omega)]
  rfl

/-- After core `cc`'s last point the output block holds the core's output row. -/
theorem out_at (c : Dev nD) (t : Fin cfg0.N) (h4 : t.val % 5 = 4) (cc : Fin 2) (hcc : cc.val = t.val / 5) (h : Fin 128) :
    (outsAt0 (F := Ideal) m c t.val t.isLt).1 (ix3 (0 : Fin 1) (0 : Fin 1) h)
      = outC (X m c) (Q m c) (W1 m c) (W2 m c) (W3 m c) cc h := by
  have e5 : t.val % 5 + 1 = 5 := by omega
  have a0 : ∀ f : Fin 128, (outsAt0 (F := Ideal) m c t.val t.isLt).2.1 (ix2 (0 : Fin 1) f) = accX (X m c) cc f := fun f => by
    rw [(rows_eq m c t.val t.isLt f).1, e5, Finset.sum_range]
    unfold accX
    exact Finset.sum_congr rfl fun j _ => blkSum_block (X m c) cc j f _ (by omega)
  have a1 : ∀ f : Fin 128, (outsAt0 (F := Ideal) m c t.val t.isLt).2.2.1 (ix2 (0 : Fin 1) f) = accQ (X m c) (Q m c) 0 cc f := fun f => by
    rw [(rows_eq m c t.val t.isLt f).2.1, e5, Finset.sum_range]
    unfold accQ
    exact Finset.sum_congr rfl fun j _ => blkSumQ_block (X m c) (Q m c) 0 cc j f _ (by omega)
  have a2 : ∀ f : Fin 128, (outsAt0 (F := Ideal) m c t.val t.isLt).2.2.2 (ix2 (0 : Fin 1) f) = accQ (X m c) (Q m c) 1 cc f := fun f => by
    rw [(rows_eq m c t.val t.isLt f).2.2, e5, Finset.sum_range]
    unfold accQ
    exact Finset.sum_congr rfl fun j _ => blkSumQ_block (X m c) (Q m c) 1 cc j f _ (by omega)
  rw [out_C m c t (by omega) h4, Cert.KerPay.pay1_apply]
  unfold outC
  refine congrArg₂ (· + ·) (congrArg₂ (· + ·) (Finset.sum_congr rfl fun f _ => ?_) (Finset.sum_congr rfl fun f _ => ?_))
    (Finset.sum_congr rfl fun f _ => ?_)
  · rw [a1 f, w1blk_apply]
  · rw [a2 f, w2blk_apply]
  · rw [a0 f, w3blk_apply]

/-- The output array the run ends with: row `cc` is core `cc`'s output row. -/
abbrev G (c : Dev nD) : (⟨3, ![2, 1, 128]⟩ : Shape).Idx → EReal :=
  fun i => outC (X m c) (Q m c) (W1 m c) (W2 m c) (W3 m c) (i 0) (i 2)

theorem index5 : ∀ t : Fin grid0.N, win0_5.index t (0 : Fin 3) = t.val / 5 ∧ win0_5.index t (1 : Fin 3) = 0
    ∧ win0_5.index t (2 : Fin 3) = 0 := by decide +kernel

/-- What a point that writes the output block back writes is its block of that array: the block at point `t` is row
    `t / 5`, and such a point is a core's last. -/
theorem flushed_eq (c : Dev nD) (t : Fin cfg0.N) (hf : (cfg0.win 5).flush t = true) :
    (dats (F := Ideal) m 0 c).flushed 5 t = ((cfg0.win 5).blk t).view.read (Elt Ideal) (G m c) := by
  have h4 : t.val % 5 = 4 := (flush0_5 t).mp hf
  have hN : t.val < 10 := lt_of_lt_of_eq t.isLt N_0
  show (cfg0.win 5).cut (grid0.coords t) ((dats (F := Ideal) m 0 c).after 5 t) = _
  rw [after0_5]
  funext y
  obtain ⟨a, b, h, rfl⟩ : ∃ (a : Fin 1) (b : Fin 1) (h : Fin 128), y = ix3 a b h := ⟨y 0, y 1, y 2, eq_ix3 (n0 := 1) (n1 := 1) (n2 := 128) y⟩
  obtain rfl : a = 0 := Subsingleton.elim _ _
  obtain rfl : b = 0 := Subsingleton.elim _ _
  rw [View.read_apply]
  show (outsAt0 (F := Ideal) m c t.val t.isLt).1 (ix3 (0 : Fin 1) (0 : Fin 1) h)
    = outC (X m c) (Q m c) (W1 m c) (W2 m c) (W3 m c) (((cfg0.win 5).blk t).view.emb (ix3 (0 : Fin 1) (0 : Fin 1) h) 0)
        (((cfg0.win 5).blk t).view.emb (ix3 (0 : Fin 1) (0 : Fin 1) h) 2)
  have e2 : ((cfg0.win 5).blk t).view.emb (ix3 (0 : Fin 1) (0 : Fin 1) h) 2 = h := Fin.ext (by
    show win0_5.index t 2 * 128 + 1 * h.val = h.val
    rw [(index5 t).2.2]; omega)
  rw [e2]
  exact out_at m c t h4 _ (by
    show win0_5.index t 0 * 1 + 1 * 0 = t.val / 5
    rw [(index5 t).1]; omega) h

theorem final5 (c : Dev nD) (cc : Fin 2) (h : Fin 128) :
    O m c (ix3 cc (0 : Fin 1) h) = outC (X m c) (Q m c) (W1 m c) (W2 m c) (W3 m c) cc h := by
  obtain ⟨t, ht⟩ : ∃ t : Fin cfg0.N, t.val = 5 * cc.val + 4 :=
    ⟨⟨5 * cc.val + 4, by rw [show cfg0.N = 10 from N_0]; have := cc.isLt; omega⟩, rfl⟩
  have hf : (cfg0.win 5).flush t = true := (flush0_5 t).mpr (by omega)
  refine ((dats (F := Ideal) m 0 c).arrAt_apply_of_mem 5 (G m c) (flushed_eq m c) cfg0.N t (ix3 cc (0 : Fin 1) h) t.isLt hf ?_).trans rfl
  show ix3 cc (0 : Fin 1) h ∈ ((View.whole main_v50).slice (win0_5.rect t)).set
  rw [View.set_slice_whole, Rect.mem_set_unit]
  intro a
  have hcc := cc.isLt
  have hh := h.isLt
  match a with
  | ⟨0, _⟩ =>
    show win0_5.index t 0 * 1 ≤ cc.val ∧ cc.val < win0_5.index t 0 * 1 + 1
    rw [(index5 t).1]; omega
  | ⟨1, _⟩ =>
    show win0_5.index t 1 * 1 ≤ 0 ∧ 0 < win0_5.index t 1 * 1 + 1
    rw [(index5 t).2.1]; omega
  | ⟨2, _⟩ =>
    show win0_5.index t 2 * 128 ≤ h.val ∧ h.val < win0_5.index t 2 * 128 + 128
    rw [(index5 t).2.2]; omega

end Cert.KerRegion

end
-- ==== Proof.KerTail.lean ====
/-
  The host lines after the region: the two cores' rows are added from zero and the bias row is added.
-/
import proofs.«429977_j70935679860741_3_alg».proof.Proof.KerArrays
import proofs.«429977_j70935679860741_3_alg».proof.Proof.KerForm
import proofs.«429977_j70935679860741_3_alg».proof.Proof.Lift
import proofs.«429977_j70935679860741_3_alg».proof.Proof.Consts
import Idealize.ShloMosaic.Lib.Pipeline.Value
import Idealize.ShloMosaic.PureOps.Ideal.Laws

set_option maxRecDepth 16384

noncomputable section

open scoped BigOperators

namespace Cert.KerTail

open Idealize.ShloMosaic Idealize.ShloMosaic.TcCoe Idealize.ShloMosaic.ValueIdx Idealize.SL.Sem
open Cert.KernelIdeal Cert.KernelIdeal.Gen
open Cert.Spec Cert.Lift Cert.KerForm Cert.KerArrays

variable (m : (ℓ : Loc nD τ sig) → Buf (Elt Ideal) ℓ)

/-- The four host operations read at lane `h`, on any output array `A` and bias row `Bv`: the reshape forgets the unit axis,
    the sum over the first axis starts from the constant `+0.0`, which denotes 0, and runs over the two rows; the broadcast
    to one row reads the sum at the lane; the last operation adds the bias row's entry. -/
theorem tail_read (A : (⟨3, ![2, 1, 128]⟩ : Shape).Idx → EReal) (Bv : (⟨2, ![1, 128]⟩ : Shape).Idx → EReal) (h : Fin 128) :
    addf (F := Ideal) (broadcastInDim S1x128 ![1] bcast_S128_S1x128_1
        (Host.reduceAdd (F := Ideal) (shapeCast S2x128 A shapeCasts_S2x1x128_S2x128) (constant S_ FTy.f32 0x00000000#32)
          reducesTo_S2x128_S128_d0 h_S_)) Bv (ix2 (0 : Fin 1) h)
      = (0 + ∑ cc : Fin 2, A (ix3 cc (0 : Fin 1) h)) + Bv (ix2 (0 : Fin 1) h) := by
  show FloatOps.addf (F := Ideal) (broadcastInDim S1x128 ![1] bcast_S128_S1x128_1
        (Host.reduceAdd (F := Ideal) (shapeCast S2x128 A shapeCasts_S2x1x128_S2x128) (constant S_ FTy.f32 0x00000000#32)
          reducesTo_S2x128_S128_d0 h_S_) (ix2 (0 : Fin 1) h)) (Bv (ix2 (0 : Fin 1) h)) = _
  rw [Ideal.addf_def]
  rw [broadcastInDim_apply _ bcast_S128_S1x128_1 _ (ix2 (0 : Fin 1) h) (ix1 h) (fun a => match a with
    | ⟨0, _⟩ => by show h.val = if (128 : Nat) = 1 then 0 else h.val; rw [if_neg (by decide)])]
  simp only [Host.reduceAdd, Ideal.hostReduceAdd_def]
  rw [Ideal.hostReduceAdd_single reducesTo_S2x128_S128_d0 (by decide)]
  rw [show constant (F := Ideal) S_ FTy.f32 0x00000000#32 (Shape.Idx.first h_S_) = (0 : EReal) from Cert.Consts.ofBits_zero]
  refine congrArg (fun z : EReal => (0 + z) + Bv (ix2 (0 : Fin 1) h)) ?_
  refine Finset.sum_congr rfl fun k _ => ?_
  exact shapeCast_apply A shapeCasts_S2x1x128_S2x128 _ (ix3 k (0 : Fin 1) h) (by
    rw [Shape.rowMajor_val_three, Shape.rowMajor_val_two]
    show (k.val * 1 + 0) * 128 + h.val = k.val * 128 + h.val
    omega)

theorem tail_row (c : Dev nD) (h : Fin 128) :
    R m c (ix2 (0 : Fin 1) h) = (0 + ∑ cc : Fin 2, O m c (ix3 cc (0 : Fin 1) h)) + B m c (ix2 (0 : Fin 1) h) := by
  have h50 : Pipeline.withArrays (cfgs 0).spec c (V0 m c) (fun w => (dats (F := Ideal) m 0 c).arrAt w (cfgs 0).N) (Proc.devRef .tc main_v50)
      = (dats (F := Ideal) m 0 c).arrAt 5 cfg0.N := Pipeline.withArrays_arr spec0 launch0.win.arr_inj c _ _ 5
  have h49 : Pipeline.withArrays (cfgs 0).spec c (V0 m c) (fun w => (dats (F := Ideal) m 0 c).arrAt w (cfgs 0).N) (Proc.devRef .tc main_v49)
      = V m c main_v49 :=
    Pipeline.withArrays_of_ne _ c (V0 m c) _ main_v49 (by decide : ∀ w, Pipeline.arrRef spec0 w ≠ main_v49)
  show Pipeline.afterTail₀ cfgs (dats (F := Ideal) m) 0 (V0 m) [hostOps1] c main_v54 (ix2 (0 : Fin 1) h) = _
  unfold Pipeline.afterTail₀
  simp only [List.flatten_cons, List.flatten_nil, List.append_nil]
  generalize hW : Pipeline.withArrays (cfgs 0).spec c (V0 m c) (fun w => (dats (F := Ideal) m 0 c).arrAt w (cfgs 0).N) = W at h50 h49 ⊢
  after_results
  rw [h49, h50]
  exact tail_read (O m c) (B m c) h

end Cert.KerTail

end
-- ==== Proof.KerAlgebra.lean ====
/-
  The kernel's formula is the streamed row of the specification.

  Two steps. First every array entry is replaced by the real number it carries; products, sums and the
  zero the accumulation starts from are then real, so the whole formula is the image of one real expression.
  Second that real expression is the streamed row: the ten blocks of ten thousand rows, five to a core,
  enumerate each of the hundred thousand nodes exactly once (block `b`, row `r` is node `10000·b + r`, and
  core `cc`, step `j` is block `5·cc + j`), so the two cores' running rows add up to the column sums over all
  nodes; and scaling by the reciprocal node count and multiplying by a matrix are linear, so they may be
  applied to each core's row and the results added, or to the sum of the rows.
-/
import proofs.«429977_j70935679860741_3_alg».proof.Proof.KerForm
import proofs.«429977_j70935679860741_3_alg».proof.Proof.Lift
import proofs.«429977_j70935679860741_3_alg».proof.Proof.Spec
import Mathlib.Data.EReal.Basic
import Mathlib.Logic.Equiv.Fin.Basic
import Mathlib.Data.Fintype.BigOperators
import Mathlib.Algebra.BigOperators.Ring.Finset
import Mathlib.Tactic.Ring
import Mathlib.Tactic.NormNum

noncomputable section

open scoped BigOperators

namespace Cert.KerAlgebra

open Idealize.ShloMosaic Idealize.ShloMosaic.ValueIdx Cert.KerForm

/-! ## Blocks enumerate the rows -/

/-- If `row i j` is the number `i·b + j` then the rows of the `a` blocks of `b` rows are all `a·b` numbers,
each once. -/
theorem sum_blocks {a b N : ℕ} (hN : a * b = N) (φ : Fin N → ℝ) (row : Fin a → Fin b → Fin N)
    (hrow : ∀ i j, (row i j).val = i.val * b + j.val) :
    ∑ i, ∑ j, φ (row i j) = ∑ n, φ n := by
  subst hN
  have h : ∀ i j, row i j = finProdFinEquiv (i, j) := by
    intro i j
    apply Fin.ext
    rw [hrow, finProdFinEquiv_apply_val, Nat.mul_comm, Nat.add_comm]
  simp only [h]
  rw [← Fintype.sum_prod_type' (fun i j => φ (finProdFinEquiv (i, j)))]
  exact Equiv.sum_comp finProdFinEquiv φ

/-- The ten blocks, five to each of the two cores, then ten thousand rows each, are the hundred thousand nodes. -/
theorem sum_nodes (φ : Fin 100000 → ℝ) :
    ∑ cc : Fin 2, ∑ j : Fin 5, ∑ r : Fin 10000, φ (rowOf (blockOf cc j) r) = ∑ n, φ n := by
  rw [sum_blocks (a := 2) (b := 5) (N := 10) (by norm_num)
        (fun b => ∑ r : Fin 10000, φ (rowOf b r)) blockOf (fun _ _ => rfl)]
  exact sum_blocks (a := 10) (b := 10000) (N := 100000) (by norm_num) φ rowOf (fun _ _ => rfl)

/-! ## The real expression -/

/-- Core `cc`'s plain column sums, over the reals. -/
def rAccX (x : Fin 100000 → Fin 128 → ℝ) (cc : Fin 2) (f : Fin 128) : ℝ :=
  ∑ j : Fin 5, ∑ r : Fin 10000, x (rowOf (blockOf cc j) r) f

/-- Core `cc`'s column sums weighted by `q`, over the reals. -/
def rAccQ (x : Fin 100000 → Fin 128 → ℝ) (q : Fin 100000 → ℝ) (cc : Fin 2) (f : Fin 128) : ℝ :=
  ∑ j : Fin 5, ∑ r : Fin 10000, x (rowOf (blockOf cc j) r) f * q (rowOf (blockOf cc j) r)

/-- Core `cc`'s output at one hidden unit, over the reals; `w1 w2 w3` are that unit's matrix columns. -/
def rOutC (x : Fin 100000 → Fin 128 → ℝ) (qp qn : Fin 100000 → ℝ) (w1 w2 w3 : Fin 128 → ℝ) (cc : Fin 2) : ℝ :=
  ((∑ f : Fin 128, (rAccQ x qp cc f * (1 / 100000)) * w1 f)
    + (∑ f : Fin 128, (rAccQ x qn cc f * (1 / 100000)) * w2 f))
  + (∑ f : Fin 128, (rAccX x cc f * (1 / 100000)) * w3 f)

/-- Scaling and a matrix column applied core by core and added is the same applied to the cores' sum. -/
theorem lin_term (A : Fin 2 → Fin 128 → ℝ) (c : ℝ) (w : Fin 128 → ℝ) :
    ∑ cc, ∑ f, (A cc f * c) * w f = ∑ f, ((∑ cc, A cc f) * c) * w f := by
  rw [Finset.sum_comm]
  refine Finset.sum_congr rfl (fun f _ => ?_)
  rw [Finset.sum_mul, Finset.sum_mul]

/-- The two cores' outputs add up to the streamed row without its bias. -/
theorem sum_rOutC (x : Fin 100000 → Fin 128 → ℝ) (qp qn : Fin 100000 → ℝ) (w1 w2 w3 : Fin 128 → ℝ) :
    ∑ cc, rOutC x qp qn w1 w2 w3 cc
      = (∑ f, ((∑ n, x n f * qp n) * (1 / 100000)) * w1 f)
        + (∑ f, ((∑ n, x n f * qn n) * (1 / 100000)) * w2 f)
        + (∑ f, ((∑ n, x n f) * (1 / 100000)) * w3 f) := by
  unfold rOutC
  rw [Finset.sum_add_distrib, Finset.sum_add_distrib, lin_term, lin_term, lin_term]
  have hp : ∀ f, ∑ cc, rAccQ x qp cc f = ∑ n, x n f * qp n := fun f => sum_nodes (fun n => x n f * qp n)
  have hn : ∀ f, ∑ cc, rAccQ x qn cc f = ∑ n, x n f * qn n := fun f => sum_nodes (fun n => x n f * qn n)
  have hx : ∀ f, ∑ cc, rAccX x cc f = ∑ n, x n f := fun f => sum_nodes (fun n => x n f)
  simp only [hp, hn, hx]

/-! ## Every entry is real -/

section Coe

variable {X : (⟨2, ![100000, 128]⟩ : Shape).Idx → EReal} {Q : (⟨2, ![100000, 2]⟩ : Shape).Idx → EReal}
  {xr : Fin 100000 → Fin 128 → ℝ}

theorem accX_coe (hX : Cert.Lift.IsReal2 X xr) (cc : Fin 2) (f : Fin 128) :
    accX X cc f = ((rAccX xr cc f : ℝ) : EReal) := by
  unfold accX colSum rAccX
  rw [← Cert.Lift.coe_sum]
  refine Finset.sum_congr rfl (fun j _ => ?_)
  rw [← Cert.Lift.coe_sum]
  exact Finset.sum_congr rfl (fun r _ => hX _ _)

theorem accQ_coe (hX : Cert.Lift.IsReal2 X xr) (k : Fin 2) (q : Fin 100000 → ℝ)
    (hQ : ∀ n : Fin 100000, Q (ix2 n k) = ((q n : ℝ) : EReal)) (cc : Fin 2) (f : Fin 128) :
    accQ X Q k cc f = ((rAccQ xr q cc f : ℝ) : EReal) := by
  unfold accQ colSumQ rAccQ
  rw [← Cert.Lift.coe_sum]
  refine Finset.sum_congr rfl (fun j _ => ?_)
  rw [← Cert.Lift.coe_sum]
  refine Finset.sum_congr rfl (fun r _ => ?_)
  rw [hX _ _, hQ _, ← EReal.coe_mul]

/-- A running row, scaled and multiplied by a matrix column, is real. -/
theorem term_coe (A : Fin 128 → EReal) (a : Fin 128 → ℝ) (hA : ∀ f, A f = ((a f : ℝ) : EReal))
    (W : (⟨2, ![128, 128]⟩ : Shape).Idx → EReal) (w : Fin 128 → Fin 128 → ℝ) (hW : Cert.Lift.IsReal2 W w)
    (h : Fin 128) :
    ∑ f : Fin 128, (A f * invN) * W (ix2 f h)
      = ((∑ f : Fin 128, (a f * (1 / 100000)) * w f h : ℝ) : EReal) := by
  unfold invN
  rw [← Cert.Lift.coe_sum]
  refine Finset.sum_congr rfl (fun f _ => ?_)
  rw [hA f, hW f h, ← EReal.coe_mul, ← EReal.coe_mul]

theorem outC_coe (hX : Cert.Lift.IsReal2 X xr) (qp qn : Fin 100000 → ℝ)
    (hQ0 : ∀ n : Fin 100000, Q (ix2 n (0 : Fin 2)) = ((qp n : ℝ) : EReal))
    (hQ1 : ∀ n : Fin 100000, Q (ix2 n (1 : Fin 2)) = ((qn n : ℝ) : EReal))
    (W1 W2 W3 : (⟨2, ![128, 128]⟩ : Shape).Idx → EReal) (w1 w2 w3 : Fin 128 → Fin 128 → ℝ)
    (hW1 : Cert.Lift.IsReal2 W1 w1) (hW2 : Cert.Lift.IsReal2 W2 w2) (hW3 : Cert.Lift.IsReal2 W3 w3)
    (cc : Fin 2) (h : Fin 128) :
    outC X Q W1 W2 W3 cc h
      = ((rOutC xr qp qn (fun f => w1 f h) (fun f => w2 f h) (fun f => w3 f h) cc : ℝ) : EReal) := by
  unfold outC rOutC
  rw [term_coe _ _ (accQ_coe hX 0 qp hQ0 cc) W1 w1 hW1 h, term_coe _ _ (accQ_coe hX 1 qn hQ1 cc) W2 w2 hW2 h,
    term_coe _ _ (accX_coe hX cc) W3 w3 hW3 h, ← EReal.coe_add, ← EReal.coe_add]

end Coe

/-! ## The statement -/

theorem kerForm_eq (X : (⟨2, ![100000, 128]⟩ : Shape).Idx → EReal) (Q : (⟨2, ![100000, 2]⟩ : Shape).Idx → EReal)
    (W1 W2 W3 : (⟨2, ![128, 128]⟩ : Shape).Idx → EReal) (B : (⟨2, ![1, 128]⟩ : Shape).Idx → EReal)
    (xr : Fin Cert.Spec.NN → Fin Cert.Spec.FF → ℝ) (gp gn : Cert.Spec.Edges)
    (WlP WrP WlN WrN : Fin 128 → Fin 128 → ℝ) (blP blN : Fin 128 → ℝ)
    (hX : Cert.Lift.IsReal2 X xr)
    (hQ0 : ∀ n : Fin 100000, Q (ix2 n (0 : Fin 2)) = ((gp.q n : ℝ) : EReal))
    (hQ1 : ∀ n : Fin 100000, Q (ix2 n (1 : Fin 2)) = ((gn.q n : ℝ) : EReal))
    (hW1 : Cert.Lift.IsReal2 W1 WlP) (hW2 : Cert.Lift.IsReal2 W2 WlN)
    (hW3 : Cert.Lift.IsReal2 W3 (fun f h => WrP f h + WrN f h))
    (hB : ∀ h : Fin 128, B (ix2 (0 : Fin 1) h) = ((blP h + blN h : ℝ) : EReal)) (h : Fin 128) :
    Cert.KerForm.kerForm X Q W1 W2 W3 B h
      = ((Cert.Spec.kerRow xr gp gn WlP WrP WlN WrN blP blN h : ℝ) : EReal) := by
  unfold kerForm
  rw [Finset.sum_congr rfl (fun cc _ => outC_coe hX gp.q gn.q hQ0 hQ1 W1 W2 W3 _ _ _ hW1 hW2 hW3 cc h),
    Cert.Lift.coe_sum, hB h, ← EReal.coe_zero, ← EReal.coe_add, ← EReal.coe_add, sum_rOutC, zero_add]
  rfl

end Cert.KerAlgebra

end
-- ==== Proof.KerValue.lean ====
/-
  The idealized kernel's run with its result named, and the result's value.

  The result buffer ends at what the host lines after the region compute from the region's output array; read at a
  hidden unit it is the two cores' output rows added, plus the bias row. Each core's row is the closed formula of the
  arrays the region is entered with; those arrays are the real data of the specification (the features, the two node
  weight columns, the matrices); so the result is the streamed form of the specification's row.
-/
import proofs.«429977_j70935679860741_3_alg».proof.Proof.Gen.KernelIdeal.Frame
import proofs.«429977_j70935679860741_3_alg».proof.Proof.KerPrefix
import proofs.«429977_j70935679860741_3_alg».proof.Proof.KerRegion
import proofs.«429977_j70935679860741_3_alg».proof.Proof.KerTail
import proofs.«429977_j70935679860741_3_alg».proof.Proof.KerAlgebra

set_option maxRecDepth 16384

noncomputable section

open scoped BigOperators

namespace Cert.KerValue

open Idealize.ShloMosaic Idealize.ShloMosaic.TcCoe Idealize.ShloMosaic.ValueIdx Idealize.SL.Sem
open Cert.KernelIdeal Cert.KernelIdeal.Gen
open Cert.Spec Cert.Lift Cert.KerForm Cert.KerArrays

variable (m : (ℓ : Loc nD τ sig) → Buf (Elt Ideal) ℓ) (ρ : Dev nD → PrngReg)

/-- The result buffer's contents after the run. -/
abbrev result (c : Dev nD) : Buf (Elt Ideal) ((c.tc : Thread nD τ).loc main_v54) :=
  Pipeline.afterTail₀ cfgs (dats (F := Ideal) m) 0 (V0 m) [hostOps1] c main_v54

/-- Every weakly fair execution terminates with the result buffer at `result` and the arguments unchanged. -/
theorem run : θ_run defs (onTc (τ := τ) (main (F := Ideal))) ⟨m, fun _ => 0, ρ⟩ (fun r => ∀ c : Dev nD,
      r.2.mem ((c.tc : Thread nD τ).loc main_v54) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2 main_v54 (Pipeline.mem_restRefs_of main_v54 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

/-- The result at hidden unit `h` is the specification's streamed row, when the arguments carry real data. -/
theorem result_apply (c : Dev nD) (xr : Fin NN → Fin FF → ℝ) (gp gn : Edges) (WlP WrP WlN WrN : Fin FF → Fin FF → ℝ)
    (blP blN : Fin FF → ℝ)
    (hx : IsReal2 (m ((c.tc : Thread nD τ).loc main_arg0)) xr)
    (hp : IsEdges (m ((c.tc : Thread nD τ).loc main_arg1)) gp) (hn : IsEdges (m ((c.tc : Thread nD τ).loc main_arg2)) gn)
    (h3 : IsReal2 (m ((c.tc : Thread nD τ).loc main_arg3)) WlP) (h4 : IsReal1 (m ((c.tc : Thread nD τ).loc main_arg4)) blP)
    (h5 : IsReal2 (m ((c.tc : Thread nD τ).loc main_arg5)) WrP) (h6 : IsReal2 (m ((c.tc : Thread nD τ).loc main_arg6)) WlN)
    (h7 : IsReal1 (m ((c.tc : Thread nD τ).loc main_arg7)) blN) (h8 : IsReal2 (m ((c.tc : Thread nD τ).loc main_arg8)) WrN)
    (h : Fin FF) :
    result m c (ix2 (0 : Fin 1) h) = ((kerRow xr gp gn WlP WrP WlN WrN blP blN h : ℝ) : EReal) := by
  show R m c (ix2 (0 : Fin 1) h) = _
  rw [Cert.KerTail.tail_row m c h]
  simp only [Cert.KerRegion.final5 m c]
  refine Cert.KerAlgebra.kerForm_eq (X m c) (Q m c) (W1 m c) (W2 m c) (W3 m c)
    (B m c) xr gp gn WlP WrP WlN WrN blP blN ?_ ?_ ?_ ?_ ?_ ?_ ?_ h
  · show IsReal2 (V m c main_arg0) xr; rw [V_main_arg0 m c]; exact hx
  · exact Cert.KerPrefix.V_qs0 m c gp hp
  · exact Cert.KerPrefix.V_qs1 m c gn hn
  · show IsReal2 (V m c main_arg3) WlP; rw [V_main_arg3 m c]; exact h3
  · show IsReal2 (V m c main_arg6) WlN; rw [V_main_arg6 m c]; exact h6
  · exact Cert.KerPrefix.V_wr m c WrP WrN h5 h8
  · exact Cert.KerPrefix.V_bias m c blP blN h4 h7

end Cert.KerValue

end
-- ==== Proof.lean ====
/-
  The certificate: the streamed kernel computes the mean, over the nodes, of a two-edge-type neighbour-mean layer.

  Both programs take node features `x`, two edge lists and, per edge type, two matrices and a bias. The reference
  gathers the source rows of every edge, sums them per destination, divides by the in-degree (one for an isolated node),
  applies the matrices and the bias per node, adds the two edge types and averages over the nodes. The kernel never forms
  a per-node product: by linearity the average is `(1/N)·∑_n x_n·q_n` times the neighbour matrix, plus `(1/N)·∑_n x_n`
  times the sum of the self matrices, plus the biases, where `q_n` sums the reciprocal in-degrees of the destinations
  of node `n`'s outgoing edges; it computes the two weight columns on the host, streams the rows once, and multiplies
  three `128`-vectors by matrices at the end.

  The two agree when every word of the edge lists is a node number (outside that range the reference's gather clamps
  and its scatter drops, on the opposite ends of an edge from the kernel's) and the float inputs are finite (the
  rearrangement distributes products over sums). Under that precondition every array carries real data (PreDecode);
  the reference's result is the specification's row (RefTotal), the kernel's its streamed form (KerValue), and the two
  forms are one real number (SpecAlgebra). The frames of the two kernel programs are the generated ones; the
  reference's is its generated run with the result dropped; the named reciprocal of the node count is what the
  idealization records.
-/
import proofs.«429977_j70935679860741_3_alg».proof.Defs
import proofs.«429977_j70935679860741_3_alg».proof.Proof.Gen.Kernel
import proofs.«429977_j70935679860741_3_alg».proof.Proof.Gen.Kernel.Skeleton
import proofs.«429977_j70935679860741_3_alg».proof.Proof.Gen.Kernel.Launch
import proofs.«429977_j70935679860741_3_alg».proof.Proof.Gen.Kernel.Points
import proofs.«429977_j70935679860741_3_alg».proof.Proof.Gen.Kernel.Frame
import proofs.«429977_j70935679860741_3_alg».proof.Proof.Gen.KernelIdeal
import proofs.«429977_j70935679860741_3_alg».proof.Proof.Gen.KernelIdeal.Skeleton
import proofs.«429977_j70935679860741_3_alg».proof.Proof.Gen.KernelIdeal.Launch
import proofs.«429977_j70935679860741_3_alg».proof.Proof.Gen.KernelIdeal.Points
import proofs.«429977_j70935679860741_3_alg».proof.Proof.Gen.KernelIdeal.Frame
import proofs.«429977_j70935679860741_3_alg».proof.Proof.Gen.ReferenceIdeal
import proofs.«429977_j70935679860741_3_alg».proof.Proof.Gen.ReferenceIdeal.Run
import proofs.«429977_j70935679860741_3_alg».proof.Proof.Gen.ReferenceIdeal.Read
import proofs.«429977_j70935679860741_3_alg».proof.Proof.Gen.Pre_finite_inputs
import proofs.«429977_j70935679860741_3_alg».proof.Proof.PreDecode
import proofs.«429977_j70935679860741_3_alg».proof.Proof.SpecAlgebra
import proofs.«429977_j70935679860741_3_alg».proof.Proof.RefTotal
import proofs.«429977_j70935679860741_3_alg».proof.Proof.KerValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The three ledger entries are one statement: the table gives the name the value `1/100000`. -/
theorem named : IdealRules.named_const.Statement Cert.KernelIdeal.κ "inv_100000" .f32 0x3727C5AC#32 ((1 / 100000 : ℝ) : EReal) :=
  IdealRules.named_const.statement Cert.KernelIdeal.κ "inv_100000" .f32 0x3727C5AC#32 ((1 / 100000 : ℝ) : EReal) rfl

theorem preserves : Cert.preserves_Kernel_KernelIdeal := ⟨named, named, named⟩

/-- From memories agreeing on the arguments both idealized programs end with the specification's row: the kernel with
    its streamed form, the reference with the mean of the layer outputs. -/
theorem algebraic : Cert.algebraic_KernelIdeal_ReferenceIdeal := by
  intro m ρ m' ρ' hpre hagree
  refine ⟨fun c => Cert.KerValue.result m c, Cert.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨xr, gp, gn, WlP, blP, WrP, WlN, blN, WrN, hx, hp, hn, h3, h4, h5, h6, h7, h8⟩ :=
    Cert.PreDecode.decode _ _ _ _ _ _ _ _ _ (hpre c)
  rw [Cert.ReferenceIdeal.Read.val_main_v60_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  funext i
  obtain ⟨p, q, rfl⟩ : ∃ (p : Fin 1) (q : Fin 128), i = ix2 p q := ⟨i 0, i 1, eq_ix2 i⟩
  obtain rfl : p = 0 := Subsingleton.elim _ _
  rw [Cert.RefTotal.ref_row _ _ _ _ _ _ _ _ _ xr gp gn WlP WrP WlN WrN blP blN hx hp hn h3 h4 h5 h6 h7 h8 q,
    Cert.Spec.refRow_eq_kerRow]
  exact (Cert.KerValue.result_apply m c xr gp gn WlP WrP WlN WrN blP blN hx hp hn h3 h4 h5 h6 h7 h8 q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
